-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S32x5x5 : Shape := ⟨3, ![32, 5, 5]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel
  bcast_S_S32x5x5 : S_.BroadcastsInDim S32x5x5 (![] : Fin 0 → Fin S32x5x5.rank)
  reducesTo_S32x5x5_S_d0_1_2 : S32x5x5.ReducesTo [0, 1, 2] S_

variable [Facts]

def fn {F : FTy → Type} [FloatOps F] (main_arg0 : FVec F S16x32x256x256 .f32) (main_arg1 : FVec F S32x5x5 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S32x5x5 .f32 := Host.absf main_arg1
  let main_cst_0 : FVec F S_ .f32 := constant S_ .f32 0x7F800000#32
  let main_v5 : FVec F S32x5x5 .f32 := broadcastInDim S32x5x5 ![] bcast_S_S32x5x5 main_cst_0
  let main_v6 : IVec S32x5x5 1 := cmpf .olt main_v4 main_v5
  let main_c_1 : IVec S_ 1 := constantI S_ 1 1#1
  let main_v7 : IVec S_ 1 := (fun x v => Host.reduce IntOp.andi x v reducesTo_S32x5x5_S_d0_1_2 h_S_) main_v6 main_c_1
  let main_v8 : IVec S_ 1 := andi main_v3 main_v7
  main_v8
-- ==== Kernel.lean ====
abbrev S16x32x256x256 : Shape := ⟨4, ![16, 32, 256, 256]⟩
abbrev S32x5x5 : Shape := ⟨3, ![32, 5, 5]⟩
abbrev S1x32x256x256 : Shape := ⟨4, ![1, 32, 256, 256]⟩
abbrev S32x256x256 : Shape := ⟨3, ![32, 256, 256]⟩
abbrev S256x256 : Shape := ⟨2, ![256, 256]⟩
abbrev S2x256 : Shape := ⟨2, ![2, 256]⟩
abbrev S260x256 : Shape := ⟨2, ![260, 256]⟩
abbrev S260x2 : Shape := ⟨2, ![260, 2]⟩
abbrev S260x260 : Shape := ⟨2, ![260, 260]⟩
abbrev S8x256x256 : Shape := ⟨3, ![8, 256, 256]⟩
abbrev S8x5x5 : Shape := ⟨3, ![8, 5, 5]⟩
abbrev S8x1x1 : Shape := ⟨3, ![8, 1, 1]⟩
abbrev S8 : Shape := ⟨1, ![8]⟩
abbrev S1x256x256 : Shape := ⟨3, ![1, 256, 256]⟩
abbrev S1x8x256x256 : Shape := ⟨4, ![1, 8, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x32x256x256, .f32⟩
  | .hbm, ⟨1, _⟩ => ⟨S32x5x5, .f32⟩
  | .hbm, ⟨2, _⟩ => ⟨S16x32x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S32x5x5, .f32⟩
  | .local _ .vmem, ⟨3, _⟩ => ⟨S1x32x256x256, .f32⟩
  | .local _ .vmem, ⟨4, _⟩ => ⟨S1x32x256x256, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  reduces_S32x256x256_S256x256 : S32x256x256.Reduces [0] S256x256
  concatenates_S2x256_S256x256_S2x256_S260x256_d0 : Shape.Concatenates [S2x256, S256x256, S2x256] S260x256 0
  concatenates_S260x2_S260x256_S260x2_S260x260_d1 : Shape.Concatenates [S260x2, S260x256, S260x2] S260x260 1
  inb_S32x5x5_S8x5x5_0_0_0 : ∀ a, (![0, 0, 0] : Fin 3 → Nat) a + S8x5x5.size a ≤ S32x5x5.size a
  h_S8x5x5 : 0 < S8x5x5.numel
  slices_S260x260_o0_0_S256x256 : S260x260.Slices ![0, 0] S256x256
  slices_S8x5x5_o0_0_0_S8x1x1 : S8x5x5.Slices ![0, 0, 0] S8x1x1
  shapeCasts_S8x1x1_S8 : S8x1x1.ShapeCasts S8
  shapeCasts_S8_S8x1x1 : S8.ShapeCasts S8x1x1
  shapeCasts_S256x256_S1x256x256 : S256x256.ShapeCasts S1x256x256
  broadcasts_S1x256x256_S8x256x256 : S1x256x256.Broadcasts S8x256x256
  broadcasts_S8x1x1_S8x256x256 : S8x1x1.Broadcasts S8x256x256
  slices_S260x260_o0_1_S256x256 : S260x260.Slices ![0, 1] S256x256
  slices_S8x5x5_o0_0_1_S8x1x1 : S8x5x5.Slices ![0, 0, 1] S8x1x1
  slices_S260x260_o0_2_S256x256 : S260x260.Slices ![0, 2] S256x256
  slices_S8x5x5_o0_0_2_S8x1x1 : S8x5x5.Slices ![0, 0, 2] S8x1x1
  slices_S260x260_o0_3_S256x256 : S260x260.Slices ![0, 3] S256x256
  slices_S8x5x5_o0_0_3_S8x1x1 : S8x5x5.Slices ![0, 0, 3] S8x1x1
  slices_S260x260_o0_4_S256x256 : S260x260.Slices ![0, 4] S256x256
  slices_S8x5x5_o0_0_4_S8x1x1 : S8x5x5.Slices ![0, 0, 4] S8x1x1
  slices_S260x260_o1_0_S256x256 : S260x260.Slices ![1, 0] S256x256
  slices_S8x5x5_o0_1_0_S8x1x1 : S8x5x5.Slices ![0, 1, 0] S8x1x1
  slices_S260x260_o1_1_S256x256 : S260x260.Slices ![1, 1] S256x256
  slices_S8x5x5_o0_1_1_S8x1x1 : S8x5x5.Slices ![0, 1, 1] S8x1x1
  slices_S260x260_o1_2_S256x256 : S260x260.Slices ![1, 2] S256x256
  slices_S8x5x5_o0_1_2_S8x1x1 : S8x5x5.Slices ![0, 1, 2] S8x1x1
  slices_S260x260_o1_3_S256x256 : S260x260.Slices ![1, 3] S256x256
  slices_S8x5x5_o0_1_3_S8x1x1 : S8x5x5.Slices ![0, 1, 3] S8x1x1
  slices_S260x260_o1_4_S256x256 : S260x260.Slices ![1, 4] S256x256
  slices_S8x5x5_o0_1_4_S8x1x1 : S8x5x5.Slices ![0, 1, 4] S8x1x1
  slices_S260x260_o2_0_S256x256 : S260x260.Slices ![2, 0] S256x256
  slices_S8x5x5_o0_2_0_S8x1x1 : S8x5x5.Slices ![0, 2, 0] S8x1x1
  slices_S260x260_o2_1_S256x256 : S260x260.Slices ![2, 1] S256x256
  slices_S8x5x5_o0_2_1_S8x1x1 : S8x5x5.Slices ![0, 2, 1] S8x1x1
  slices_S260x260_o2_2_S256x256 : S260x260.Slices ![2, 2] S256x256
  slices_S8x5x5_o0_2_2_S8x1x1 : S8x5x5.Slices ![0, 2, 2] S8x1x1
  slices_S260x260_o2_3_S256x256 : S260x260.Slices ![2, 3] S256x256
  slices_S8x5x5_o0_2_3_S8x1x1 : S8x5x5.Slices ![0, 2, 3] S8x1x1
  slices_S260x260_o2_4_S256x256 : S260x260.Slices ![2, 4] S256x256
  slices_S8x5x5_o0_2_4_S8x1x1 : S8x5x5.Slices ![0, 2, 4] S8x1x1
  slices_S260x260_o3_0_S256x256 : S260x260.Slices ![3, 0] S256x256
  slices_S8x5x5_o0_3_0_S8x1x1 : S8x5x5.Slices ![0, 3, 0] S8x1x1
  slices_S260x260_o3_1_S256x256 : S260x260.Slices ![3, 1] S256x256
  slices_S8x5x5_o0_3_1_S8x1x1 : S8x5x5.Slices ![0, 3, 1] S8x1x1
  slices_S260x260_o3_2_S256x256 : S260x260.Slices ![3, 2] S256x256
  slices_S8x5x5_o0_3_2_S8x1x1 : S8x5x5.Slices ![0, 3, 2] S8x1x1
  slices_S260x260_o3_3_S256x256 : S260x260.Slices ![3, 3] S256x256
  slices_S8x5x5_o0_3_3_S8x1x1 : S8x5x5.Slices ![0, 3, 3] S8x1x1
  slices_S260x260_o3_4_S256x256 : S260x260.Slices ![3, 4] S256x256
  slices_S8x5x5_o0_3_4_S8x1x1 : S8x5x5.Slices ![0, 3, 4] S8x1x1
  slices_S260x260_o4_0_S256x256 : S260x260.Slices ![4, 0] S256x256
  slices_S8x5x5_o0_4_0_S8x1x1 : S8x5x5.Slices ![0, 4, 0] S8x1x1
  slices_S260x260_o4_1_S256x256 : S260x260.Slices ![4, 1] S256x256
  slices_S8x5x5_o0_4_1_S8x1x1 : S8x5x5.Slices ![0, 4, 1] S8x1x1
  slices_S260x260_o4_2_S256x256 : S260x260.Slices ![4, 2] S256x256
  slices_S8x5x5_o0_4_2_S8x1x1 : S8x5x5.Slices ![0, 4, 2] S8x1x1
  slices_S260x260_o4_3_S256x256 : S260x260.Slices ![4, 3] S256x256
  slices_S8x5x5_o0_4_3_S8x1x1 : S8x5x5.Slices ![0, 4, 3] S8x1x1
  slices_S260x260_o4_4_S256x256 : S260x260.Slices ![4, 4] S256x256
  slices_S8x5x5_o0_4_4_S8x1x1 : S8x5x5.Slices ![0, 4, 4] S8x1x1
  inb_S1x32x256x256_S1x8x256x256_0_0_0_0 : ∀ a, (![0, 0, 0, 0] : Fin 4 → Nat) a + S1x8x256x256.size a ≤ S1x32x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  inb_S32x5x5_S8x5x5_8_0_0 : ∀ a, (![8, 0, 0] : Fin 3 → Nat) a + S8x5x5.size a ≤ S32x5x5.size a
  inb_S1x32x256x256_S1x8x256x256_0_8_0_0 : ∀ a, (![0, 8, 0, 0] : Fin 4 → Nat) a + S1x8x256x256.size a ≤ S1x32x256x256.size a
  inb_S32x5x5_S8x5x5_16_0_0 : ∀ a, (![16, 0, 0] : Fin 3 → Nat) a + S8x5x5.size a ≤ S32x5x5.size a
  inb_S1x32x256x256_S1x8x256x256_0_16_0_0 : ∀ a, (![0, 16, 0, 0] : Fin 4 → Nat) a + S1x8x256x256.size a ≤ S1x32x256x256.size a
  inb_S32x5x5_S8x5x5_24_0_0 : ∀ a, (![24, 0, 0] : Fin 3 → Nat) a + S8x5x5.size a ≤ S32x5x5.size a
  inb_S1x32x256x256_S1x8x256x256_0_24_0_0 : ∀ a, (![0, 24, 0, 0] : Fin 4 → Nat) a + S1x8x256x256.size a ≤ S1x32x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S16x32x256x256.size a
  hwx0_0 : ∀ i : grid0.Coords, EltTy.bits .f32 = 32 ∨ (Rect.block (s := S16x32x256x256) S1x32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5x5.size a ≤ S32x5x5.size a
  hwx0_1 : ∀ i : grid0.Coords, EltTy.bits .f32 = 32 ∨ (Rect.block (s := S32x5x5) S32x5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x256.size a ≤ S16x32x256x256.size a
  hwx0_2 : ∀ i : grid0.Coords, EltTy.bits .f32 = 32 ∨ (Rect.block (s := S16x32x256x256) S1x32x256x256.size (cc0_transform_2 i) (hinb0_2 i)).WholeWords (EltTy.packing .f32)

variable [Facts₀]

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x256x256 : Shape := ⟨4, ![16, 32, 256, 256]⟩
abbrev S32x5x5 : Shape := ⟨3, ![32, 5, 5]⟩
abbrev S_ : Shape := ⟨0, ![]⟩
abbrev S16x256x256 : Shape := ⟨3, ![16, 256, 256]⟩
abbrev S16x260x260 : Shape := ⟨3, ![16, 260, 260]⟩
abbrev S16x1x256x256 : Shape := ⟨4, ![16, 1, 256, 256]⟩
abbrev S32x1x1 : Shape := ⟨3, ![32, 1, 1]⟩
abbrev S32 : Shape := ⟨1, ![32]⟩
abbrev S1x32x1x1 : Shape := ⟨4, ![1, 32, 1, 1]⟩

abbrev nBuf : Space → Nat
  | .hbm => 234
  | .vmem => 0
  | .smem => 0
  | _ => 0

abbrev hbmTy0_0 (i : Nat) : BufTy := match i % 128 with
  | 0 => ⟨S16x32x256x256, .f32⟩
  | 1 => ⟨S32x5x5, .f32⟩
  | 2 => ⟨S_, .f32⟩
  | 3 => ⟨S16x256x256, .f32⟩
  | 4 => ⟨S_, .f32⟩
  | 5 => ⟨S_, .f32⟩
  | 6 => ⟨S16x260x260, .f32⟩
  | 7 => ⟨S_, .f32⟩
  | 8 => ⟨S16x32x256x256, .f32⟩
  | 9 => ⟨S16x256x256, .f32⟩
  | 10 => ⟨S16x1x256x256, .f32⟩
  | 11 => ⟨S32x1x1, .f32⟩
  | 12 => ⟨S32, .f32⟩
  | 13 => ⟨S1x32x1x1, .f32⟩
  | 14 => ⟨S16x32x256x256, .f32⟩
  | 15 => ⟨S16x32x256x256, .f32⟩
  | 16 => ⟨S16x32x256x256, .f32⟩
  | 17 => ⟨S16x32x256x256, .f32⟩
  | 18 => ⟨S16x256x256, .f32⟩
  | 19 => ⟨S16x1x256x256, .f32⟩
  | 20 => ⟨S32x1x1, .f32⟩
  | 21 => ⟨S32, .f32⟩
  | 22 => ⟨S1x32x1x1, .f32⟩
  | 23 => ⟨S16x32x256x256, .f32⟩
  | 24 => ⟨S16x32x256x256, .f32⟩
  | 25 => ⟨S16x32x256x256, .f32⟩
  | 26 => ⟨S16x32x256x256, .f32⟩
  | 27 => ⟨S16x256x256, .f32⟩
  | 28 => ⟨S16x1x256x256, .f32⟩
  | 29 => ⟨S32x1x1, .f32⟩
  | 30 => ⟨S32, .f32⟩
  | 31 => ⟨S1x32x1x1, .f32⟩
  | 32 => ⟨S16x32x256x256, .f32⟩
  | 33 => ⟨S16x32x256x256, .f32⟩
  | 34 => ⟨S16x32x256x256, .f32⟩
  | 35 => ⟨S16x32x256x256, .f32⟩
  | 36 => ⟨S16x256x256, .f32⟩
  | 37 => ⟨S16x1x256x256, .f32⟩
  | 38 => ⟨S32x1x1, .f32⟩
  | 39 => ⟨S32, .f32⟩
  | 40 => ⟨S1x32x1x1, .f32⟩
  | 41 => ⟨S16x32x256x256, .f32⟩
  | 42 => ⟨S16x32x256x256, .f32⟩
  | 43 => ⟨S16x32x256x256, .f32⟩
  | 44 => ⟨S16x32x256x256, .f32⟩
  | 45 => ⟨S16x256x256, .f32⟩
  | 46 => ⟨S16x1x256x256, .f32⟩
  | 47 => ⟨S32x1x1, .f32⟩
  | 48 => ⟨S32, .f32⟩
  | 49 => ⟨S1x32x1x1, .f32⟩
  | 50 => ⟨S16x32x256x256, .f32⟩
  | 51 => ⟨S16x32x256x256, .f32⟩
  | 52 => ⟨S16x32x256x256, .f32⟩
  | 53 => ⟨S16x32x256x256, .f32⟩
  | 54 => ⟨S16x256x256, .f32⟩
  | 55 => ⟨S16x1x256x256, .f32⟩
  | 56 => ⟨S32x1x1, .f32⟩
  | 57 => ⟨S32, .f32⟩
  | 58 => ⟨S1x32x1x1, .f32⟩
  | 59 => ⟨S16x32x256x256, .f32⟩
  | 60 => ⟨S16x32x256x256, .f32⟩
  | 61 => ⟨S16x32x256x256, .f32⟩
  | 62 => ⟨S16x32x256x256, .f32⟩
  | 63 => ⟨S16x256x256, .f32⟩
  | 64 => ⟨S16x1x256x256, .f32⟩
  | 65 => ⟨S32x1x1, .f32⟩
  | 66 => ⟨S32, .f32⟩
  | 67 => ⟨S1x32x1x1, .f32⟩
  | 68 => ⟨S16x32x256x256, .f32⟩
  | 69 => ⟨S16x32x256x256, .f32⟩
  | 70 => ⟨S16x32x256x256, .f32⟩
  | 71 => ⟨S16x32x256x256, .f32⟩
  | 72 => ⟨S16x256x256, .f32⟩
  | 73 => ⟨S16x1x256x256, .f32⟩
  | 74 => ⟨S32x1x1, .f32⟩
  | 75 => ⟨S32, .f32⟩
  | 76 => ⟨S1x32x1x1, .f32⟩
  | 77 => ⟨S16x32x256x256, .f32⟩
  | 78 => ⟨S16x32x256x256, .f32⟩
  | 79 => ⟨S16x32x256x256, .f32⟩
  | 80 => ⟨S16x32x256x256, .f32⟩
  | 81 => ⟨S16x256x256, .f32⟩
  | 82 => ⟨S16x1x256x256, .f32⟩
  | 83 => ⟨S32x1x1, .f32⟩
  | 84 => ⟨S32, .f32⟩
  | 85 => ⟨S1x32x1x1, .f32⟩
  | 86 => ⟨S16x32x256x256, .f32⟩
  | 87 => ⟨S16x32x256x256, .f32⟩
  | 88 => ⟨S16x32x256x256, .f32⟩
  | 89 => ⟨S16x32x256x256, .f32⟩
  | 90 => ⟨S16x256x256, .f32⟩
  | 91 => ⟨S16x1x256x256, .f32⟩
  | 92 => ⟨S32x1x1, .f32⟩
  | 93 => ⟨S32, .f32⟩
  | 94 => ⟨S1x32x1x1, .f32⟩
  | 95 => ⟨S16x32x256x256, .f32⟩
  | 96 => ⟨S16x32x256x256, .f32⟩
  | 97 => ⟨S16x32x256x256, .f32⟩
  | 98 => ⟨S16x32x256x256, .f32⟩
  | 99 => ⟨S16x256x256, .f32⟩
  | 100 => ⟨S16x1x256x256, .f32⟩
  | 101 => ⟨S32x1x1, .f32⟩
  | 102 => ⟨S32, .f32⟩
  | 103 => ⟨S1x32x1x1, .f32⟩
  | 104 => ⟨S16x32x256x256, .f32⟩
  | 105 => ⟨S16x32x256x256, .f32⟩
  | 106 => ⟨S16x32x256x256, .f32⟩
  | 107 => ⟨S16x32x256x256, .f32⟩
  | 108 => ⟨S16x256x256, .f32⟩
  | 109 => ⟨S16x1x256x256, .f32⟩
  | 110 => ⟨S32x1x1, .f32⟩
  | 111 => ⟨S32, .f32⟩
  | 112 => ⟨S1x32x1x1, .f32⟩
  | 113 => ⟨S16x32x256x256, .f32⟩
  | 114 => ⟨S16x32x256x256, .f32⟩
  | 115 => ⟨S16x32x256x256, .f32⟩
  | 116 => ⟨S16x32x256x256, .f32⟩
  | 117 => ⟨S16x256x256, .f32⟩
  | 118 => ⟨S16x1x256x256, .f32⟩
  | 119 => ⟨S32x1x1, .f32⟩
  | 120 => ⟨S32, .f32⟩
  | 121 => ⟨S1x32x1x1, .f32⟩
  | 122 => ⟨S16x32x256x256, .f32⟩
  | 123 => ⟨S16x32x256x256, .f32⟩
  | 124 => ⟨S16x32x256x256, .f32⟩
  | 125 => ⟨S16x32x256x256, .f32⟩
  | 126 => ⟨S16x256x256, .f32⟩
  | 127 => ⟨S16x1x256x256, .f32⟩
  | _ => ⟨S16x32x256x256, .f32⟩

abbrev hbmTy0_1 (i : Nat) : BufTy := match i % 128 with
  | 0 => ⟨S32x1x1, .f32⟩
  | 1 => ⟨S32, .f32⟩
  | 2 => ⟨S1x32x1x1, .f32⟩
  | 3 => ⟨S16x32x256x256, .f32⟩
  | 4 => ⟨S16x32x256x256, .f32⟩
  | 5 => ⟨S16x32x256x256, .f32⟩
  | 6 => ⟨S16x32x256x256, .f32⟩
  | 7 => ⟨S16x256x256, .f32⟩
  | 8 => ⟨S16x1x256x256, .f32⟩
  | 9 => ⟨S32x1x1, .f32⟩
  | 10 => ⟨S32, .f32⟩
  | 11 => ⟨S1x32x1x1, .f32⟩
  | 12 => ⟨S16x32x256x256, .f32⟩
  | 13 => ⟨S16x32x256x256, .f32⟩
  | 14 => ⟨S16x32x256x256, .f32⟩
  | 15 => ⟨S16x32x256x256, .f32⟩
  | 16 => ⟨S16x256x256, .f32⟩
  | 17 => ⟨S16x1x256x256, .f32⟩
  | 18 => ⟨S32x1x1, .f32⟩
  | 19 => ⟨S32, .f32⟩
  | 20 => ⟨S1x32x1x1, .f32⟩
  | 21 => ⟨S16x32x256x256, .f32⟩
  | 22 => ⟨S16x32x256x256, .f32⟩
  | 23 => ⟨S16x32x256x256, .f32⟩
  | 24 => ⟨S16x32x256x256, .f32⟩
  | 25 => ⟨S16x256x256, .f32⟩
  | 26 => ⟨S16x1x256x256, .f32⟩
  | 27 => ⟨S32x1x1, .f32⟩
  | 28 => ⟨S32, .f32⟩
  | 29 => ⟨S1x32x1x1, .f32⟩
  | 30 => ⟨S16x32x256x256, .f32⟩
  | 31 => ⟨S16x32x256x256, .f32⟩
  | 32 => ⟨S16x32x256x256, .f32⟩
  | 33 => ⟨S16x32x256x256, .f32⟩
  | 34 => ⟨S16x256x256, .f32⟩
  | 35 => ⟨S16x1x256x256, .f32⟩
  | 36 => ⟨S32x1x1, .f32⟩
  | 37 => ⟨S32, .f32⟩
  | 38 => ⟨S1x32x1x1, .f32⟩
  | 39 => ⟨S16x32x256x256, .f32⟩
  | 40 => ⟨S16x32x256x256, .f32⟩
  | 41 => ⟨S16x32x256x256, .f32⟩
  | 42 => ⟨S16x32x256x256, .f32⟩
  | 43 => ⟨S16x256x256, .f32⟩
  | 44 => ⟨S16x1x256x256, .f32⟩
  | 45 => ⟨S32x1x1, .f32⟩
  | 46 => ⟨S32, .f32⟩
  | 47 => ⟨S1x32x1x1, .f32⟩
  | 48 => ⟨S16x32x256x256, .f32⟩
  | 49 => ⟨S16x32x256x256, .f32⟩
  | 50 => ⟨S16x32x256x256, .f32⟩
  | 51 => ⟨S16x32x256x256, .f32⟩
  | 52 => ⟨S16x256x256, .f32⟩
  | 53 => ⟨S16x1x256x256, .f32⟩
  | 54 => ⟨S32x1x1, .f32⟩
  | 55 => ⟨S32, .f32⟩
  | 56 => ⟨S1x32x1x1, .f32⟩
  | 57 => ⟨S16x32x256x256, .f32⟩
  | 58 => ⟨S16x32x256x256, .f32⟩
  | 59 => ⟨S16x32x256x256, .f32⟩
  | 60 => ⟨S16x32x256x256, .f32⟩
  | 61 => ⟨S16x256x256, .f32⟩
  | 62 => ⟨S16x1x256x256, .f32⟩
  | 63 => ⟨S32x1x1, .f32⟩
  | 64 => ⟨S32, .f32⟩
  | 65 => ⟨S1x32x1x1, .f32⟩
  | 66 => ⟨S16x32x256x256, .f32⟩
  | 67 => ⟨S16x32x256x256, .f32⟩
  | 68 => ⟨S16x32x256x256, .f32⟩
  | 69 => ⟨S16x32x256x256, .f32⟩
  | 70 => ⟨S16x256x256, .f32⟩
  | 71 => ⟨S16x1x256x256, .f32⟩
  | 72 => ⟨S32x1x1, .f32⟩
  | 73 => ⟨S32, .f32⟩
  | 74 => ⟨S1x32x1x1, .f32⟩
  | 75 => ⟨S16x32x256x256, .f32⟩
  | 76 => ⟨S16x32x256x256, .f32⟩
  | 77 => ⟨S16x32x256x256, .f32⟩
  | 78 => ⟨S16x32x256x256, .f32⟩
  | 79 => ⟨S16x256x256, .f32⟩
  | 80 => ⟨S16x1x256x256, .f32⟩
  | 81 => ⟨S32x1x1, .f32⟩
  | 82 => ⟨S32, .f32⟩
  | 83 => ⟨S1x32x1x1, .f32⟩
  | 84 => ⟨S16x32x256x256, .f32⟩
  | 85 => ⟨S16x32x256x256, .f32⟩
  | 86 => ⟨S16x32x256x256, .f32⟩
  | 87 => ⟨S16x32x256x256, .f32⟩
  | 88 => ⟨S16x256x256, .f32⟩
  | 89 => ⟨S16x1x256x256, .f32⟩
  | 90 => ⟨S32x1x1, .f32⟩
  | 91 => ⟨S32, .f32⟩
  | 92 => ⟨S1x32x1x1, .f32⟩
  | 93 => ⟨S16x32x256x256, .f32⟩
  | 94 => ⟨S16x32x256x256, .f32⟩
  | 95 => ⟨S16x32x256x256, .f32⟩
  | 96 => ⟨S16x32x256x256, .f32⟩
  | 97 => ⟨S16x256x256, .f32⟩
  | 98 => ⟨S16x1x256x256, .f32⟩
  | 99 => ⟨S32x1x1, .f32⟩
  | 100 => ⟨S32, .f32⟩
  | 101 => ⟨S1x32x1x1, .f32⟩
  | 102 => ⟨S16x32x256x256, .f32⟩
  | 103 => ⟨S16x32x256x256, .f32⟩
  | 104 => ⟨S16x32x256x256, .f32⟩
  | 105 => ⟨S16x32x256x256, .f32⟩
  | _ => ⟨S16x32x256x256, .f32⟩

abbrev hbmTy (i : Nat) : BufTy := match i / 128 with
  | 0 => hbmTy0_0 i
  | 1 => hbmTy0_1 i
  | _ => ⟨S16x32x256x256, .f32⟩

abbrev bufTy : (tb : Table) → Fin (tcTables nBuf tb) → BufTy
  | .hbm, ⟨i, _⟩ => hbmTy i
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_call0_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩

abbrev nD : Nat := 1
abbrev τ : Topo := Topo.v7x

variable {F : FTy → Type} [FloatOps F]

class Facts₀ : Prop where
  reducesTo_S16x32x256x256_S16x256x256_d1 : S16x32x256x256.ReducesTo [1] S16x256x256
  h_S_ : 0 < S_.numel
  pads_S16x256x256_S16x260x260_000_220_220 : S16x256x256.Pads (![0, 2, 2] : Fin 3 → Nat) ![0, 2, 2] ![0, 0, 0] S16x260x260
  bcast_S_S16x32x256x256 : S_.BroadcastsInDim S16x32x256x256 (![] : Fin 0 → Fin S16x32x256x256.rank)
  slices_S16x260x260_S16x256x256_0_0_0 : S16x260x260.Slices ![0, 0, 0] S16x256x256
  bcast_S16x256x256_S16x1x256x256_0_2_3 : S16x256x256.BroadcastsInDim S16x1x256x256 (![0, 2, 3] : Fin 3 → Fin S16x1x256x256.rank)
  slices_S32x5x5_S32x1x1_0_0_0 : S32x5x5.Slices ![0, 0, 0] S32x1x1
  shapeCasts_S32x1x1_S32 : S32x1x1.ShapeCasts S32
  bcast_S32_S1x32x1x1_1 : S32.BroadcastsInDim S1x32x1x1 (![1] : Fin 1 → Fin S1x32x1x1.rank)
  bcast_S16x1x256x256_S16x32x256x256_0_1_2_3 : S16x1x256x256.BroadcastsInDim S16x32x256x256 (![0, 1, 2, 3] : Fin 4 → Fin S16x32x256x256.rank)
  bcast_S1x32x1x1_S16x32x256x256_0_1_2_3 : S1x32x1x1.BroadcastsInDim S16x32x256x256 (![0, 1, 2, 3] : Fin 4 → Fin S16x32x256x256.rank)
  slices_S16x260x260_S16x256x256_0_0_1 : S16x260x260.Slices ![0, 0, 1] S16x256x256
  slices_S32x5x5_S32x1x1_0_0_1 : S32x5x5.Slices ![0, 0, 1] S32x1x1
  slices_S16x260x260_S16x256x256_0_0_2 : S16x260x260.Slices ![0, 0, 2] S16x256x256
  slices_S32x5x5_S32x1x1_0_0_2 : S32x5x5.Slices ![0, 0, 2] S32x1x1
  slices_S16x260x260_S16x256x256_0_0_3 : S16x260x260.Slices ![0, 0, 3] S16x256x256
  slices_S32x5x5_S32x1x1_0_0_3 : S32x5x5.Slices ![0, 0, 3] S32x1x1
  slices_S16x260x260_S16x256x256_0_0_4 : S16x260x260.Slices ![0, 0, 4] S16x256x256
  slices_S32x5x5_S32x1x1_0_0_4 : S32x5x5.Slices ![0, 0, 4] S32x1x1
  slices_S16x260x260_S16x256x256_0_1_0 : S16x260x260.Slices ![0, 1, 0] S16x256x256
  slices_S32x5x5_S32x1x1_0_1_0 : S32x5x5.Slices ![0, 1, 0] S32x1x1
  slices_S16x260x260_S16x256x256_0_1_1 : S16x260x260.Slices ![0, 1, 1] S16x256x256
  slices_S32x5x5_S32x1x1_0_1_1 : S32x5x5.Slices ![0, 1, 1] S32x1x1
  slices_S16x260x260_S16x256x256_0_1_2 : S16x260x260.Slices ![0, 1, 2] S16x256x256
  slices_S32x5x5_S32x1x1_0_1_2 : S32x5x5.Slices ![0, 1, 2] S32x1x1
  slices_S16x260x260_S16x256x256_0_1_3 : S16x260x260.Slices ![0, 1, 3] S16x256x256
  slices_S32x5x5_S32x1x1_0_1_3 : S32x5x5.Slices ![0, 1, 3] S32x1x1
  slices_S16x260x260_S16x256x256_0_1_4 : S16x260x260.Slices ![0, 1, 4] S16x256x256
  slices_S32x5x5_S32x1x1_0_1_4 : S32x5x5.Slices ![0, 1, 4] S32x1x1
  slices_S16x260x260_S16x256x256_0_2_0 : S16x260x260.Slices ![0, 2, 0] S16x256x256
  slices_S32x5x5_S32x1x1_0_2_0 : S32x5x5.Slices ![0, 2, 0] S32x1x1
  slices_S16x260x260_S16x256x256_0_2_1 : S16x260x260.Slices ![0, 2, 1] S16x256x256
  slices_S32x5x5_S32x1x1_0_2_1 : S32x5x5.Slices ![0, 2, 1] S32x1x1
  slices_S16x260x260_S16x256x256_0_2_2 : S16x260x260.Slices ![0, 2, 2] S16x256x256
  slices_S32x5x5_S32x1x1_0_2_2 : S32x5x5.Slices ![0, 2, 2] S32x1x1
  slices_S16x260x260_S16x256x256_0_2_3 : S16x260x260.Slices ![0, 2, 3] S16x256x256
  slices_S32x5x5_S32x1x1_0_2_3 : S32x5x5.Slices ![0, 2, 3] S32x1x1
  slices_S16x260x260_S16x256x256_0_2_4 : S16x260x260.Slices ![0, 2, 4] S16x256x256
  slices_S32x5x5_S32x1x1_0_2_4 : S32x5x5.Slices ![0, 2, 4] S32x1x1
  slices_S16x260x260_S16x256x256_0_3_0 : S16x260x260.Slices ![0, 3, 0] S16x256x256
  slices_S32x5x5_S32x1x1_0_3_0 : S32x5x5.Slices ![0, 3, 0] S32x1x1
  slices_S16x260x260_S16x256x256_0_3_1 : S16x260x260.Slices ![0, 3, 1] S16x256x256
  slices_S32x5x5_S32x1x1_0_3_1 : S32x5x5.Slices ![0, 3, 1] S32x1x1
  slices_S16x260x260_S16x256x256_0_3_2 : S16x260x260.Slices ![0, 3, 2] S16x256x256
  slices_S32x5x5_S32x1x1_0_3_2 : S32x5x5.Slices ![0, 3, 2] S32x1x1
  slices_S16x260x260_S16x256x256_0_3_3 : S16x260x260.Slices ![0, 3, 3] S16x256x256
  slices_S32x5x5_S32x1x1_0_3_3 : S32x5x5.Slices ![0, 3, 3] S32x1x1
  slices_S16x260x260_S16x256x256_0_3_4 : S16x260x260.Slices ![0, 3, 4] S16x256x256
  slices_S32x5x5_S32x1x1_0_3_4 : S32x5x5.Slices ![0, 3, 4] S32x1x1
  slices_S16x260x260_S16x256x256_0_4_0 : S16x260x260.Slices ![0, 4, 0] S16x256x256
  slices_S32x5x5_S32x1x1_0_4_0 : S32x5x5.Slices ![0, 4, 0] S32x1x1
  slices_S16x260x260_S16x256x256_0_4_1 : S16x260x260.Slices ![0, 4, 1] S16x256x256
  slices_S32x5x5_S32x1x1_0_4_1 : S32x5x5.Slices ![0, 4, 1] S32x1x1
  slices_S16x260x260_S16x256x256_0_4_2 : S16x260x260.Slices ![0, 4, 2] S16x256x256
  slices_S32x5x5_S32x1x1_0_4_2 : S32x5x5.Slices ![0, 4, 2] S32x1x1
  slices_S16x260x260_S16x256x256_0_4_3 : S16x260x260.Slices ![0, 4, 3] S16x256x256
  slices_S32x5x5_S32x1x1_0_4_3 : S32x5x5.Slices ![0, 4, 3] S32x1x1
  slices_S16x260x260_S16x256x256_0_4_4 : S16x260x260.Slices ![0, 4, 4] S16x256x256
  slices_S32x5x5_S32x1x1_0_4_4 : S32x5x5.Slices ![0, 4, 4] S32x1x1

variable [Facts₀]

class Facts : Prop extends Facts₀ where

variable [Facts]
-- ==== Proof.Spec.lean ====
/-
  The max-min semifield convolution, as a function of the argument arrays, one output entry at a time.

  For an image stack X[b, c, i, j] and a bank of 5×5 weights W[o, dy, dx] the result is
      out[b, o, y, x] = max over the 25 taps (dy, dx) of  min (P[b, y + dy, x + dx], W[o, dy, dx]),
  where P[b] is the channel maximum  M[b, i, j] = max_c X[b, c, i, j]  framed by a border of width two of the
  lattice's bottom element z (the word 0xFF800000, −∞): P[b, r, s] = M[b, r − 2, s − 2] inside the frame, z on it.
  Both maxima start from z, and the taps are taken in row-major order, so the entry is a left fold of
  a ↦ max a (min p w) from z over the 25 taps. Nothing here needs more of the extended reals than their order.
-/
import Idealize.ShloMosaic.Lib.ValueIdx
import Idealize.ShloMosaic.PureOps.Ideal.Laws

noncomputable section

namespace Cert.SemiConv

open Idealize.ShloMosaic Idealize.ShloMosaic.ValueIdx

/-- A rank-2 array read at natural coordinates: its entry inside its extents, `d` outside. -/
def nat2 {m n : Nat} (d : EReal) (v : (⟨2, ![m, n]⟩ : Shape).Idx → EReal) (r s : Nat) : EReal :=
  if h : r < m ∧ s < n then v (ix2 ⟨r, h.1⟩ ⟨s, h.2⟩) else d

/-- A rank-3 array read at a first coordinate and two natural coordinates: its entry inside its extents, `d` outside. -/
def nat3 {a m n : Nat} (d : EReal) (v : (⟨3, ![a, m, n]⟩ : Shape).Idx → EReal) (p : Fin a) (r s : Nat) : EReal :=
  if h : r < m ∧ s < n then v (ix3 p ⟨r, h.1⟩ ⟨s, h.2⟩) else d

theorem nat2_of_lt {m n : Nat} (d : EReal) (v : (⟨2, ![m, n]⟩ : Shape).Idx → EReal) (r s : Nat) (hr : r < m) (hs : s < n) :
    nat2 d v r s = v (ix2 ⟨r, hr⟩ ⟨s, hs⟩) := by
  unfold nat2; rw [dif_pos ⟨hr, hs⟩]

theorem nat3_of_lt {a m n : Nat} (d : EReal) (v : (⟨3, ![a, m, n]⟩ : Shape).Idx → EReal) (p : Fin a) (r s : Nat)
    (hr : r < m) (hs : s < n) : nat3 d v p r s = v (ix3 p ⟨r, hr⟩ ⟨s, hs⟩) := by
  unfold nat3; rw [dif_pos ⟨hr, hs⟩]

/-- The maximum over the 32 channels of image `b` at pixel `(i, j)`, from `z`. -/
def chanMax {B : Nat} (z : EReal) (X : (⟨4, ![B, 32, 256, 256]⟩ : Shape).Idx → EReal) (b : Fin B) (i j : Fin 256) : EReal :=
  (Finset.univ : Finset (Fin 32)).fold max z (fun c => X (ix4 b c i j))

/-- A 256×256 image framed by a border of width two of `z`, read at natural coordinates of the 260×260 frame
    (and `z` beyond it). -/
def padded (z : EReal) (M : Fin 256 → Fin 256 → EReal) (r s : Nat) : EReal :=
  if h : (2 ≤ r ∧ r < 258) ∧ (2 ≤ s ∧ s < 258) then M ⟨r - 2, by omega⟩ ⟨s - 2, by omega⟩ else z

/-- The 25 taps of the 5×5 window, in row-major order. -/
def taps : List (Nat × Nat) :=
  [(0, 0), (0, 1), (0, 2), (0, 3), (0, 4),
   (1, 0), (1, 1), (1, 2), (1, 3), (1, 4),
   (2, 0), (2, 1), (2, 2), (2, 3), (2, 4),
   (3, 0), (3, 1), (3, 2), (3, 3), (3, 4),
   (4, 0), (4, 1), (4, 2), (4, 3), (4, 4)]

/-- The max-min correlation of a window `P` with weights `K`: the fold of `a ↦ max a (min p k)` from `z` over the taps. -/
def maxMin (z : EReal) (P K : Nat → Nat → EReal) : EReal :=
  taps.foldl (fun a d => max a (min (P d.1 d.2) (K d.1 d.2))) z

/-- One output entry from the channel-maximum image `M` of its batch element: the framed image's window at `(y, x)`
    against output channel `o`'s weights. -/
def pixel (z : EReal) (M : Fin 256 → Fin 256 → EReal) (W : (⟨3, ![32, 5, 5]⟩ : Shape).Idx → EReal)
    (o : Fin 32) (y x : Fin 256) : EReal :=
  maxMin z (fun dy dx => padded z M (y.val + dy) (x.val + dx)) (nat3 z W o)

/-- One output entry from the argument arrays. -/
def entry {B : Nat} (z : EReal) (X : (⟨4, ![B, 32, 256, 256]⟩ : Shape).Idx → EReal) (W : (⟨3, ![32, 5, 5]⟩ : Shape).Idx → EReal)
    (b : Fin B) (o : Fin 32) (y x : Fin 256) : EReal :=
  pixel z (chanMax z X b) W o y x

/-- The whole result array. -/
def result {B : Nat} (z : EReal) (X : (⟨4, ![B, 32, 256, 256]⟩ : Shape).Idx → EReal) (W : (⟨3, ![32, 5, 5]⟩ : Shape).Idx → EReal) :
    (⟨4, ![B, 32, 256, 256]⟩ : Shape).Idx → EReal :=
  fun i => entry z X W (i 0) (i 1) (i 2) (i 3)

theorem result_ix4 {B : Nat} (z : EReal) (X : (⟨4, ![B, 32, 256, 256]⟩ : Shape).Idx → EReal)
    (W : (⟨3, ![32, 5, 5]⟩ : Shape).Idx → EReal) (b : Fin B) (o : Fin 32) (y x : Fin 256) :
    result z X W (ix4 b o y x) = entry z X W b o y x := rfl

/-- The entry depends on the images only through the channel maximum of its batch element. -/
theorem entry_congr {B B' : Nat} (z : EReal) (X : (⟨4, ![B, 32, 256, 256]⟩ : Shape).Idx → EReal)
    (X' : (⟨4, ![B', 32, 256, 256]⟩ : Shape).Idx → EReal) (W : (⟨3, ![32, 5, 5]⟩ : Shape).Idx → EReal)
    (b : Fin B) (b' : Fin B') (h : ∀ c i j, X (ix4 b c i j) = X' (ix4 b' c i j)) (o : Fin 32) (y x : Fin 256) :
    entry z X W b o y x = entry z X' W b' o y x := by
  unfold entry
  have e : chanMax z X b = chanMax z X' b' := by
    funext i j; unfold chanMax; congr 1; funext c; exact h c i j
  rw [e]

end Cert.SemiConv

end
-- ==== Proof.TapKernel.lean ====
/-
  One tap of the kernel's accumulation, read at an entry: the running maximum over a chunk of eight output channels,
  joined with the minimum of a shifted 256×256 window of the framed image (stretched over the eight channels) and
  one weight per channel (stretched over the pixels).
-/
import Idealize.ShloMosaic.Lib.Pipeline.Value
import proofs.«138590_j1606317768738_1_alg».proof.Proof.Spec

noncomputable section

namespace Cert.SemiConv

open Idealize.ShloMosaic Idealize.ShloMosaic.ValueIdx

/-- The accumulator after one more tap, at channel `q` of the chunk and pixel `(y, x)`: the accumulator there, joined with
    the minimum of the framed image at `(y + dy, x + dx)` and the chunk's weight `(q, dy, dx)`. -/
theorem tapK_apply (d : EReal) (dy dx : Nat)
    (acc : FVec Ideal ⟨3, ![8, 256, 256]⟩ .f32) (xp : FVec Ideal ⟨2, ![260, 260]⟩ .f32) (kc : FVec Ideal ⟨3, ![8, 5, 5]⟩ .f32)
    (h1 : (⟨2, ![260, 260]⟩ : Shape).Slices ![dy, dx] ⟨2, ![256, 256]⟩)
    (h2 : (⟨3, ![8, 5, 5]⟩ : Shape).Slices ![0, dy, dx] ⟨3, ![8, 1, 1]⟩)
    (c1 : (⟨3, ![8, 1, 1]⟩ : Shape).ShapeCasts ⟨1, ![8]⟩) (c2 : (⟨1, ![8]⟩ : Shape).ShapeCasts ⟨3, ![8, 1, 1]⟩)
    (c3 : (⟨2, ![256, 256]⟩ : Shape).ShapeCasts ⟨3, ![1, 256, 256]⟩)
    (b1 : (⟨3, ![1, 256, 256]⟩ : Shape).Broadcasts ⟨3, ![8, 256, 256]⟩)
    (b2 : (⟨3, ![8, 1, 1]⟩ : Shape).Broadcasts ⟨3, ![8, 256, 256]⟩) (q : Fin 8) (y x : Fin 256) :
    maximumf acc (minimumf
        (broadcastTo ⟨3, ![8, 256, 256]⟩ (shapeCast ⟨3, ![1, 256, 256]⟩ (extractStridedSlice ⟨2, ![256, 256]⟩ ![dy, dx] xp h1) c3) b1)
        (broadcastTo ⟨3, ![8, 256, 256]⟩
          (shapeCast ⟨3, ![8, 1, 1]⟩ (shapeCast ⟨1, ![8]⟩ (extractStridedSlice ⟨3, ![8, 1, 1]⟩ ![0, dy, dx] kc h2) c1) c2) b2))
      (ix3 q y x)
    = max (acc (ix3 q y x)) (min (nat2 d xp (y.val + dy) (x.val + dx)) (nat3 d kc q dy dx)) := by
  have hdy : dy + 256 ≤ 260 := h1.2 (0 : Fin 2)
  have hdx : dx + 256 ≤ 260 := h1.2 (1 : Fin 2)
  have hy : y.val < 256 := y.isLt
  have hx : x.val < 256 := x.isLt
  rw [maximumf_apply, minimumf_apply, nat2_of_lt d xp _ _ (by omega) (by omega), nat3_of_lt d kc q _ _ (by omega) (by omega)]
  congr 2
  · refine (broadcastTo_apply _ b1 (ix3 q y x) (ix3 (0 : Fin 1) y x) (fun a => ?_)).trans ?_
    · match a with
      | ⟨0, _⟩ => rfl
      | ⟨1, _⟩ => rfl
      | ⟨2, _⟩ => rfl
    refine (shapeCast_apply _ c3 (ix3 (0 : Fin 1) y x) (ix2 y x) ?_).trans ?_
    · rw [Shape.rowMajor_val_two, Shape.rowMajor_val_three]
      show y.val * 256 + x.val = ((0 : Nat) * 256 + y.val) * 256 + x.val
      omega
    exact extractStridedSlice_apply ![dy, dx] xp h1 (ix2 y x) _ (fun a => match a with
      | ⟨0, _⟩ => by show y.val + dy = dy + y.val; omega
      | ⟨1, _⟩ => by show x.val + dx = dx + x.val; omega)
  · refine (broadcastTo_apply _ b2 (ix3 q y x) (ix3 q (0 : Fin 1) (0 : Fin 1)) (fun a => ?_)).trans ?_
    · match a with
      | ⟨0, _⟩ => rfl
      | ⟨1, _⟩ => rfl
      | ⟨2, _⟩ => rfl
    refine (shapeCast_apply _ c2 (ix3 q (0 : Fin 1) (0 : Fin 1)) (ix1 q) ?_).trans ?_
    · rw [Shape.rowMajor_val_one, Shape.rowMajor_val_three]
      show q.val = (q.val * 1 + 0) * 1 + 0
      omega
    refine (shapeCast_apply _ c1 (ix1 q) (ix3 q (0 : Fin 1) (0 : Fin 1)) ?_).trans ?_
    · rw [Shape.rowMajor_val_one, Shape.rowMajor_val_three]
      show (q.val * 1 + 0) * 1 + 0 = q.val
      omega
    exact extractStridedSlice_apply ![0, dy, dx] kc h2 (ix3 q (0 : Fin 1) (0 : Fin 1)) _ (fun a => match a with
      | ⟨0, _⟩ => by show q.val = 0 + q.val; omega
      | ⟨1, _⟩ => by show dy = dy + 0; omega
      | ⟨2, _⟩ => by show dx = dx + 0; omega)

end Cert.SemiConv

end
-- ==== Proof.FrameKernel.lean ====
/-
  The kernel's framed image: the channel-maximum image with two rows of z above and below (a concatenation along the
  rows), then two columns of z left and right (a concatenation along the columns), read at natural coordinates.
-/
import Idealize.ShloMosaic.Lib.Pipeline.Value
import proofs.«138590_j1606317768738_1_alg».proof.Proof.Spec

noncomputable section

namespace Cert.SemiConv

open Idealize.ShloMosaic Idealize.ShloMosaic.ValueIdx

/-- Rows of z, the image, rows of z: row `r` of the 260-row strip is the image's row `r − 2` for `2 ≤ r < 258`, else z. -/
theorem rowsK_apply (z : EReal) (M : (⟨2, ![256, 256]⟩ : Shape).Idx → EReal)
    (hc : Shape.Concatenates (([⟨⟨2, ![2, 256]⟩, broadcast ⟨2, ![2, 256]⟩ z⟩, ⟨⟨2, ![256, 256]⟩, M⟩,
      ⟨⟨2, ![2, 256]⟩, broadcast ⟨2, ![2, 256]⟩ z⟩] : List ((s : Shape) × (s.Idx → EReal))).map (·.1)) ⟨2, ![260, 256]⟩ 0)
    (r : Fin 260) (s : Fin 256) :
    concatenate ⟨2, ![260, 256]⟩ 0 [⟨⟨2, ![2, 256]⟩, broadcast ⟨2, ![2, 256]⟩ z⟩, ⟨⟨2, ![256, 256]⟩, M⟩,
        ⟨⟨2, ![2, 256]⟩, broadcast ⟨2, ![2, 256]⟩ z⟩] hc (ix2 r s)
      = if h : 2 ≤ r.val ∧ r.val < 258 then M (ix2 ⟨r.val - 2, by omega⟩ s) else z := by
  have hr : r.val < 260 := r.isLt
  by_cases h0 : r.val < 2
  · rw [dif_neg (by omega)]
    exact concatenate_apply_piece 0 _ hc (ix2 r s) 0 (by show (0 : Nat) < 3; omega) _ _ rfl rfl 0 rfl (ix2 ⟨r.val, by omega⟩ s)
      (fun b => match b with
        | ⟨0, _⟩ => fun hb => absurd rfl hb
        | ⟨1, _⟩ => fun _ => rfl)
      (by show 0 + r.val = r.val; omega)
  · by_cases h1 : r.val < 258
    · rw [dif_pos ⟨by omega, h1⟩]
      exact concatenate_apply_piece 0 _ hc (ix2 r s) 1 (by show (1 : Nat) < 3; omega) _ _ rfl rfl 2 rfl (ix2 ⟨r.val - 2, by omega⟩ s)
        (fun b => match b with
          | ⟨0, _⟩ => fun hb => absurd rfl hb
          | ⟨1, _⟩ => fun _ => rfl)
        (by show 2 + (r.val - 2) = r.val; omega)
    · rw [dif_neg (by omega)]
      exact concatenate_apply_piece 0 _ hc (ix2 r s) 2 (by show (2 : Nat) < 3; omega) _ _ rfl rfl 258 rfl (ix2 ⟨r.val - 258, by omega⟩ s)
        (fun b => match b with
          | ⟨0, _⟩ => fun hb => absurd rfl hb
          | ⟨1, _⟩ => fun _ => rfl)
        (by show 258 + (r.val - 258) = r.val; omega)

/-- Columns of z, a strip, columns of z: column `s` of the 260-column frame is the strip's column `s − 2` for
    `2 ≤ s < 258`, else z. -/
theorem colsK_apply (z : EReal) (R : (⟨2, ![260, 256]⟩ : Shape).Idx → EReal)
    (hc : Shape.Concatenates (([⟨⟨2, ![260, 2]⟩, broadcast ⟨2, ![260, 2]⟩ z⟩, ⟨⟨2, ![260, 256]⟩, R⟩,
      ⟨⟨2, ![260, 2]⟩, broadcast ⟨2, ![260, 2]⟩ z⟩] : List ((s : Shape) × (s.Idx → EReal))).map (·.1)) ⟨2, ![260, 260]⟩ 1)
    (r : Fin 260) (s : Fin 260) :
    concatenate ⟨2, ![260, 260]⟩ 1 [⟨⟨2, ![260, 2]⟩, broadcast ⟨2, ![260, 2]⟩ z⟩, ⟨⟨2, ![260, 256]⟩, R⟩,
        ⟨⟨2, ![260, 2]⟩, broadcast ⟨2, ![260, 2]⟩ z⟩] hc (ix2 r s)
      = if h : 2 ≤ s.val ∧ s.val < 258 then R (ix2 r ⟨s.val - 2, by omega⟩) else z := by
  have hs : s.val < 260 := s.isLt
  by_cases h0 : s.val < 2
  · rw [dif_neg (by omega)]
    exact concatenate_apply_piece 1 _ hc (ix2 r s) 0 (by show (0 : Nat) < 3; omega) _ _ rfl rfl 0 rfl (ix2 r ⟨s.val, by omega⟩)
      (fun b => match b with
        | ⟨0, _⟩ => fun _ => rfl
        | ⟨1, _⟩ => fun hb => absurd rfl hb)
      (by show 0 + s.val = s.val; omega)
  · by_cases h1 : s.val < 258
    · rw [dif_pos ⟨by omega, h1⟩]
      exact concatenate_apply_piece 1 _ hc (ix2 r s) 1 (by show (1 : Nat) < 3; omega) _ _ rfl rfl 2 rfl (ix2 r ⟨s.val - 2, by omega⟩)
        (fun b => match b with
          | ⟨0, _⟩ => fun _ => rfl
          | ⟨1, _⟩ => fun hb => absurd rfl hb)
        (by show 2 + (s.val - 2) = s.val; omega)
    · rw [dif_neg (by omega)]
      exact concatenate_apply_piece 1 _ hc (ix2 r s) 2 (by show (2 : Nat) < 3; omega) _ _ rfl rfl 258 rfl (ix2 r ⟨s.val - 258, by omega⟩)
        (fun b => match b with
          | ⟨0, _⟩ => fun _ => rfl
          | ⟨1, _⟩ => fun hb => absurd rfl hb)
        (by show 258 + (s.val - 258) = s.val; omega)

/-- The framed image at natural coordinates is the specification's `padded` of the image. -/
theorem framedK_apply (z : EReal) (M : (⟨2, ![256, 256]⟩ : Shape).Idx → EReal)
    (hc0 : Shape.Concatenates (([⟨⟨2, ![2, 256]⟩, broadcast ⟨2, ![2, 256]⟩ z⟩, ⟨⟨2, ![256, 256]⟩, M⟩,
      ⟨⟨2, ![2, 256]⟩, broadcast ⟨2, ![2, 256]⟩ z⟩] : List ((s : Shape) × (s.Idx → EReal))).map (·.1)) ⟨2, ![260, 256]⟩ 0)
    (hc1 : Shape.Concatenates (([⟨⟨2, ![260, 2]⟩, broadcast ⟨2, ![260, 2]⟩ z⟩,
      ⟨⟨2, ![260, 256]⟩, concatenate ⟨2, ![260, 256]⟩ 0 [⟨⟨2, ![2, 256]⟩, broadcast ⟨2, ![2, 256]⟩ z⟩, ⟨⟨2, ![256, 256]⟩, M⟩,
        ⟨⟨2, ![2, 256]⟩, broadcast ⟨2, ![2, 256]⟩ z⟩] hc0⟩,
      ⟨⟨2, ![260, 2]⟩, broadcast ⟨2, ![260, 2]⟩ z⟩] : List ((s : Shape) × (s.Idx → EReal))).map (·.1)) ⟨2, ![260, 260]⟩ 1)
    (r s : Nat) :
    nat2 z (concatenate ⟨2, ![260, 260]⟩ 1 [⟨⟨2, ![260, 2]⟩, broadcast ⟨2, ![260, 2]⟩ z⟩,
      ⟨⟨2, ![260, 256]⟩, concatenate ⟨2, ![260, 256]⟩ 0 [⟨⟨2, ![2, 256]⟩, broadcast ⟨2, ![2, 256]⟩ z⟩, ⟨⟨2, ![256, 256]⟩, M⟩,
        ⟨⟨2, ![2, 256]⟩, broadcast ⟨2, ![2, 256]⟩ z⟩] hc0⟩,
      ⟨⟨2, ![260, 2]⟩, broadcast ⟨2, ![260, 2]⟩ z⟩] hc1) r s
      = padded z (fun i j => M (ix2 i j)) r s := by
  unfold nat2 padded
  by_cases hin : r < 260 ∧ s < 260
  · rw [dif_pos hin, colsK_apply]
    by_cases hs : 2 ≤ s ∧ s < 258
    · rw [dif_pos hs, rowsK_apply]
      by_cases hr : 2 ≤ r ∧ r < 258
      · rw [dif_pos hr, dif_pos ⟨hr, hs⟩]
      · rw [dif_neg hr, dif_neg (fun h => hr h.1)]
    · rw [dif_neg hs, dif_neg (fun h => hs h.2)]
  · rw [dif_neg hin, dif_neg (fun h => hin ⟨by omega, by omega⟩)]

end Cert.SemiConv

end
-- ==== Proof.ChanMax.lean ====
/-
  The channel maximum, as each program computes it: the kernel reduces the block's 32 channels (its leading unit axis
  cast away) along the first axis; the reference reduces the whole array along its second axis. At the extended reals
  both are the fold of `max` from the initial value over the 32 channel coordinates.
-/
import Idealize.ShloMosaic.Lib.Pipeline.Value
import Idealize.ShloMosaic.PureOps.Reduce
import proofs.«138590_j1606317768738_1_alg».proof.Proof.Spec

noncomputable section

namespace Cert.SemiConv

open Idealize.ShloMosaic Idealize.ShloMosaic.ValueIdx

/-- The kernel's reduction over the channels of a [1, 32, 256, 256] block, at pixel `(i, j)`. -/
theorem chanMaxK_apply (w : BitVec 32) (v0 : FVec Ideal ⟨4, ![1, 32, 256, 256]⟩ .f32)
    (hsc : (⟨4, ![1, 32, 256, 256]⟩ : Shape).ShapeCasts ⟨3, ![32, 256, 256]⟩)
    (hred : (⟨3, ![32, 256, 256]⟩ : Shape).Reduces [0] ⟨2, ![256, 256]⟩) (hφ : FKind.Formats .f32)
    (hacc : w = FKind.maximumf.neutral .f32 hφ) (i j : Fin 256) :
    multiReduction .maximumf [0] ⟨2, ![256, 256]⟩ (shapeCast ⟨3, ![32, 256, 256]⟩ v0 hsc) w hred hφ hacc (ix2 i j)
      = chanMax (Ideal.ofBits .f32 w) v0 (0 : Fin 1) i j := by
  rw [Ideal.multiReduction_maximumf_single]
  unfold chanMax
  show (Finset.univ : Finset (Fin 32)).fold max (Ideal.ofBits .f32 w) _ = _
  congr 1
  funext c
  show shapeCast ⟨3, ![32, 256, 256]⟩ v0 hsc (hred.lift (ix2 i j) c) = _
  refine shapeCast_apply v0 hsc _ (ix4 (0 : Fin 1) c i j) ?_
  rw [Shape.rowMajor_val_four, Shape.rowMajor_val_three, hred.lift_val, hred.lift_val, hred.lift_val]
  show (((0 : Nat) * 32 + c.val) * 256 + i.val) * 256 + j.val
    = (hred.liftVal (ix2 i j) c.val 0 * 256 + hred.liftVal (ix2 i j) c.val 1) * 256 + hred.liftVal (ix2 i j) c.val 2
  have e0 : hred.liftVal (ix2 i j) c.val 0 = c.val := by unfold Shape.Reduces.liftVal; simp
  have e1 : hred.liftVal (ix2 i j) c.val 1 = i.val := by unfold Shape.Reduces.liftVal; simp
  have e2 : hred.liftVal (ix2 i j) c.val 2 = j.val := by unfold Shape.Reduces.liftVal; simp
  rw [e0, e1, e2]; omega

/-- The reference's reduction over the channels of the whole [16, 32, 256, 256] array, at image `b` and pixel `(i, j)`. -/
theorem chanMaxR_apply (x : FVec Ideal ⟨4, ![16, 32, 256, 256]⟩ .f32) (init : (⟨0, ![]⟩ : Shape).Idx → Ideal .f32)
    (h' : (⟨4, ![16, 32, 256, 256]⟩ : Shape).ReducesTo [1] ⟨3, ![16, 256, 256]⟩) (hu : 0 < (⟨0, ![]⟩ : Shape).numel)
    (b : Fin 16) (i j : Fin 256) :
    Host.reduce FloatOps.maximumf x init h' hu (ix3 b i j) = chanMax (init (Shape.Idx.first hu)) x b i j := by
  have h : (⟨4, ![16, 32, 256, 256]⟩ : Shape).Reduces [1] ⟨3, ![16, 256, 256]⟩ := by decide
  rw [Host.reduce_eq_fold_single FloatOps.maximumf x init h' h hu]
  unfold chanMax
  show (Finset.univ : Finset (Fin 32)).fold max (init (Shape.Idx.first hu)) _ = _
  congr 1
  funext c
  show x (h.lift (ix3 b i j) c) = x (ix4 b c i j)
  refine congrArg x (funext fun a => Fin.ext ?_)
  rw [h.lift_val]
  match a with
  | ⟨0, _⟩ => unfold Shape.Reduces.liftVal; simp
  | ⟨1, _⟩ => unfold Shape.Reduces.liftVal; simp
  | ⟨2, _⟩ => unfold Shape.Reduces.liftVal; simp
  | ⟨3, _⟩ => unfold Shape.Reduces.liftVal; simp

end Cert.SemiConv

end
-- ==== Proof.KernelChunks.lean ====
/-
  What the kernel stores for one chunk of eight output channels, read at an entry: from z, one tap after another in
  row-major order, the running maximum joined with the minimum of the framed channel maximum of the block (shifted by
  the tap) and the chunk's weight at the tap — the specification's max-min correlation of the framed image's window
  with the chunk's weights.
-/
import proofs.«138590_j1606317768738_1_alg».proof.Proof.Gen.KernelIdeal.Skeleton
import Idealize.ShloMosaic.Lib.Pipeline.Value
import proofs.«138590_j1606317768738_1_alg».proof.Proof.Spec
import proofs.«138590_j1606317768738_1_alg».proof.Proof.TapKernel
import proofs.«138590_j1606317768738_1_alg».proof.Proof.FrameKernel
import proofs.«138590_j1606317768738_1_alg».proof.Proof.ChanMax

set_option maxRecDepth 16384

noncomputable section

namespace Cert.KernelIdeal.Conv

open Cert.KernelIdeal Cert.KernelIdeal.Gen Idealize.ShloMosaic Idealize.ShloMosaic.TcCoe Idealize.ShloMosaic.ValueIdx Cert.SemiConv

/-- The bottom of the max-min semifield as both programs spell it: the word 0xFF800000 (−∞), read at the extended reals. -/
abbrev Z : EReal := Ideal.ofBits .f32 0xFF800000#32

/-- A scalar constant's word reads as the vector constant's. -/
theorem scalar_Z : (Scalar.ofBits (F := Ideal) .f32 0xFF800000#32 : EReal) = Z := rfl

/-- The framed channel maximum of a block, at natural coordinates of the frame. -/
theorem framed_eq (v0 : Vec Ideal S1x32x256x256 .f32) (r s : Nat) :
    nat2 Z (k0_pay2 v0) r s = padded Z (chanMax Z v0 (0 : Fin 1)) r s := by
  unfold k0_pay2
  simp only [scalar_Z]
  exact (framedK_apply Z _ _ _ r s).trans
    (congrArg (fun M : Fin 256 → Fin 256 → EReal => padded Z M r s)
      (funext fun i => funext fun j => chanMaxK_apply _ v0 _ _ _ _ i j))

theorem chunk0_apply (v0 : Vec Ideal S1x32x256x256 .f32) (kc : Vec Ideal S8x5x5 .f32) (q : Fin 8) (y x : Fin 256) :
    (k0_pay13 (k0_pay2 v0) kc (k0_pay11 (k0_pay2 v0) kc (k0_pay8 (k0_pay2 v0) kc (k0_pay5 (k0_pay2 v0) kc (k0_pay3 v0 kc) (k0_pay4 v0 kc)) (k0_pay6 kc) (k0_pay7 (k0_pay2 v0))) (k0_pay9 (k0_pay2 v0)) (k0_pay10 kc)) (k0_pay12 (k0_pay2 v0) kc) : FVec Ideal S1x8x256x256 .f32) (ix4 (0 : Fin 1) q y x)
      = maxMin Z (fun dy dx => padded Z (chanMax Z v0 (0 : Fin 1)) (y.val + dy) (x.val + dx)) (nat3 Z kc q) := by
  simp only [k0_pay13, k0_pay11, k0_pay8, k0_pay5, k0_pay3, k0_pay4, k0_pay6, k0_pay7, k0_pay9, k0_pay10, k0_pay12]
  simp only [scalar_Z]
  refine (shapeCast_apply _ _ (ix4 (0 : Fin 1) q y x) (ix3 q y x) ?_).trans ?_
  · rw [Shape.rowMajor_val_three, Shape.rowMajor_val_four]
    show (q.val * 256 + y.val) * 256 + x.val = (((0 : Nat) * 8 + q.val) * 256 + y.val) * 256 + x.val
    omega
  simp only [tapK_apply Z]
  simp only [framed_eq, framedK_apply, chanMaxK_apply]
  simp only [maxMin, taps, List.foldl]
  rfl

theorem chunk1_apply (v0 : Vec Ideal S1x32x256x256 .f32) (kc : Vec Ideal S8x5x5 .f32) (q : Fin 8) (y x : Fin 256) :
    (k0_pay22 (k0_pay2 v0) kc (k0_pay21 (k0_pay2 v0) kc (k0_pay18 (k0_pay2 v0) kc (k0_pay15 (k0_pay2 v0) kc (k0_pay14 (k0_pay2 v0) kc)) (k0_pay16 kc) (k0_pay17 (k0_pay2 v0))) (k0_pay19 (k0_pay2 v0)) (k0_pay20 kc)) : FVec Ideal S1x8x256x256 .f32) (ix4 (0 : Fin 1) q y x)
      = maxMin Z (fun dy dx => padded Z (chanMax Z v0 (0 : Fin 1)) (y.val + dy) (x.val + dx)) (nat3 Z kc q) := by
  simp only [k0_pay22, k0_pay21, k0_pay18, k0_pay15, k0_pay14, k0_pay16, k0_pay17, k0_pay19, k0_pay20]
  simp only [scalar_Z]
  refine (shapeCast_apply _ _ (ix4 (0 : Fin 1) q y x) (ix3 q y x) ?_).trans ?_
  · rw [Shape.rowMajor_val_three, Shape.rowMajor_val_four]
    show (q.val * 256 + y.val) * 256 + x.val = (((0 : Nat) * 8 + q.val) * 256 + y.val) * 256 + x.val
    omega
  simp only [tapK_apply Z]
  simp only [framed_eq, framedK_apply, chanMaxK_apply]
  simp only [maxMin, taps, List.foldl]
  rfl

theorem chunk2_apply (v0 : Vec Ideal S1x32x256x256 .f32) (kc : Vec Ideal S8x5x5 .f32) (q : Fin 8) (y x : Fin 256) :
    (k0_pay33 kc (k0_pay31 (k0_pay2 v0) kc (k0_pay28 (k0_pay2 v0) kc (k0_pay25 (k0_pay2 v0) kc (k0_pay23 (k0_pay2 v0) kc) (k0_pay24 (k0_pay2 v0))) (k0_pay26 (k0_pay2 v0)) (k0_pay27 kc)) (k0_pay29 (k0_pay2 v0)) (k0_pay30 kc)) (k0_pay32 (k0_pay2 v0)) : FVec Ideal S1x8x256x256 .f32) (ix4 (0 : Fin 1) q y x)
      = maxMin Z (fun dy dx => padded Z (chanMax Z v0 (0 : Fin 1)) (y.val + dy) (x.val + dx)) (nat3 Z kc q) := by
  simp only [k0_pay33, k0_pay31, k0_pay28, k0_pay25, k0_pay23, k0_pay24, k0_pay26, k0_pay27, k0_pay29, k0_pay30, k0_pay32]
  simp only [scalar_Z]
  refine (shapeCast_apply _ _ (ix4 (0 : Fin 1) q y x) (ix3 q y x) ?_).trans ?_
  · rw [Shape.rowMajor_val_three, Shape.rowMajor_val_four]
    show (q.val * 256 + y.val) * 256 + x.val = (((0 : Nat) * 8 + q.val) * 256 + y.val) * 256 + x.val
    omega
  simp only [tapK_apply Z]
  simp only [framed_eq, framedK_apply, chanMaxK_apply]
  simp only [maxMin, taps, List.foldl]
  rfl

theorem chunk3_apply (v0 : Vec Ideal S1x32x256x256 .f32) (kc : Vec Ideal S8x5x5 .f32) (q : Fin 8) (y x : Fin 256) :
    (k0_pay1 (k0_pay42 (k0_pay2 v0) kc (k0_pay39 (k0_pay2 v0) kc (k0_pay37 (k0_pay2 v0) kc (k0_pay34 (k0_pay2 v0) kc) (k0_pay35 (k0_pay2 v0)) (k0_pay36 kc)) (k0_pay38 (k0_pay2 v0) kc)) (k0_pay40 kc) (k0_pay41 (k0_pay2 v0))) (k0_pay43 (k0_pay2 v0)) (k0_pay44 kc) : FVec Ideal S1x8x256x256 .f32) (ix4 (0 : Fin 1) q y x)
      = maxMin Z (fun dy dx => padded Z (chanMax Z v0 (0 : Fin 1)) (y.val + dy) (x.val + dx)) (nat3 Z kc q) := by
  simp only [k0_pay1, k0_pay42, k0_pay39, k0_pay37, k0_pay34, k0_pay35, k0_pay36, k0_pay38, k0_pay40, k0_pay41, k0_pay43, k0_pay44]
  simp only [scalar_Z]
  refine (shapeCast_apply _ _ (ix4 (0 : Fin 1) q y x) (ix3 q y x) ?_).trans ?_
  · rw [Shape.rowMajor_val_three, Shape.rowMajor_val_four]
    show (q.val * 256 + y.val) * 256 + x.val = (((0 : Nat) * 8 + q.val) * 256 + y.val) * 256 + x.val
    omega
  simp only [tapK_apply Z]
  simp only [framed_eq, framedK_apply, chanMaxK_apply]
  simp only [maxMin, taps, List.foldl]
  rfl

end Cert.KernelIdeal.Conv

end
-- ==== Proof.KernelValue.lean ====
/-
  The kernel's result array. At grid point t the body leaves in the output's staging buffer the four chunks of eight
  output channels, each the specification's entries of the block it read — so the buffer is the specification's result
  of the input block (one image) and the weights; block t of the images is image t, the weights' one block is the whole
  bank, and the output's sixteen blocks tile the array: the array ends at the specification's result of the arguments.
-/
import proofs.«138590_j1606317768738_1_alg».proof.Proof.Gen.KernelIdeal.Value
import proofs.«138590_j1606317768738_1_alg».proof.Proof.KernelChunks

set_option maxRecDepth 16384

noncomputable section

namespace Cert.KernelIdeal.Conv

open Cert.KernelIdeal Cert.KernelIdeal.Gen Idealize.ShloMosaic Idealize.ShloMosaic.TcCoe Idealize.SL.Sem
open Idealize.ShloMosaic.ValueIdx Cert.SemiConv
open Idealize.ShloMosaic.Pipeline (Dat)

theorem zeros4 : (![0, 0, 0, 0] : Fin 4 → Nat) = fun _ => 0 := funext fun a => by fin_cases a <;> rfl

/-- The weights a chunk loads — eight consecutive output channels from channel `o0` — read at channel `q` of the chunk
    are the bank's at channel `o0 + q`. -/
theorem weights_chunk (x1 : Vec Ideal S32x5x5 .f32) (o0 : Nat) (inb : ∀ a, (![o0, 0, 0] : Fin 3 → Nat) a + S8x5x5.size a ≤ S32x5x5.size a)
    (q : Fin 8) (h : o0 + q.val < 32) :
    nat3 Z (View.ld x1 (Rect.unit (s := S32x5x5) ![o0, 0, 0] S8x5x5.size inb)) q = nat3 Z x1 ⟨o0 + q.val, h⟩ := by
  funext dy dx
  unfold nat3
  by_cases hd : dy < 5 ∧ dx < 5
  · rw [dif_pos hd, dif_pos hd]
    show x1 ((Rect.unit (s := S32x5x5) ![o0, 0, 0] S8x5x5.size inb).emb (ix3 q ⟨dy, hd.1⟩ ⟨dx, hd.2⟩)) = _
    refine congrArg x1 (funext fun a => Fin.ext ?_)
    match a with
    | ⟨0, _⟩ => show o0 + 1 * q.val = o0 + q.val; omega
    | ⟨1, _⟩ => show 0 + 1 * dy = dy; omega
    | ⟨2, _⟩ => show 0 + 1 * dx = dx; omega
  · rw [dif_neg hd, dif_neg hd]

/-- One chunk's piece of the buffer agrees with the specification's result of the block: the chunk's value at channel
    `q`, pixel `(y, x)` is the entry at output channel `o0 + q`. -/
theorem piece_eq (x0 : Vec Ideal S1x32x256x256 .f32) (x1 : Vec Ideal S32x5x5 .f32) (o0 : Nat)
    (inbK : ∀ a, (![o0, 0, 0] : Fin 3 → Nat) a + S8x5x5.size a ≤ S32x5x5.size a)
    (inbO : ∀ a, (![0, o0, 0, 0] : Fin 4 → Nat) a + S1x8x256x256.size a ≤ S1x32x256x256.size a)
    (w : FVec Ideal S1x8x256x256 .f32)
    (hw : ∀ (q : Fin 8) (y x : Fin 256), w (ix4 (0 : Fin 1) q y x)
      = maxMin Z (fun dy dx => padded Z (chanMax Z x0 (0 : Fin 1)) (y.val + dy) (x.val + dx))
          (nat3 Z (View.ld x1 (Rect.unit (s := S32x5x5) ![o0, 0, 0] S8x5x5.size inbK)) q))
    (xi : (Rect.unit (s := S1x32x256x256) ![0, o0, 0, 0] S1x8x256x256.size inbO).shape.Idx) :
    w xi = result Z x0 x1 ((Rect.unit (s := S1x32x256x256) ![0, o0, 0, 0] S1x8x256x256.size inbO).emb xi) := by
  obtain ⟨a, q, y, x, rfl⟩ : ∃ (a : Fin 1) (q : Fin 8) (y x : Fin 256), xi = ix4 a q y x :=
    ⟨xi 0, xi 1, xi 2, xi 3, eq_ix4 xi⟩
  have ha : a = 0 := Fin.ext (by have := a.isLt; omega)
  subst ha
  have ho : o0 + q.val < 32 := by
    have := inbO (1 : Fin 4)
    have h8 : o0 + 8 ≤ 32 := this
    have := q.isLt; omega
  have hemb : (Rect.unit (s := S1x32x256x256) ![0, o0, 0, 0] S1x8x256x256.size inbO).emb (ix4 (0 : Fin 1) q y x)
      = ix4 (0 : Fin 1) ⟨o0 + q.val, ho⟩ y x := by
    funext b; apply Fin.ext
    match b with
    | ⟨0, _⟩ => show 0 + 1 * 0 = 0; omega
    | ⟨1, _⟩ => show o0 + 1 * q.val = o0 + q.val; omega
    | ⟨2, _⟩ => show 0 + 1 * y.val = y.val; omega
    | ⟨3, _⟩ => show 0 + 1 * x.val = x.val; omega
  rw [hemb, result_ix4, hw, weights_chunk x1 o0 inbK q ho]
  rfl

/-- What the body leaves in the output's staging buffer: the specification's result of the block of images and the
    weights. -/
theorem out_eq (x0 : Vec Ideal S1x32x256x256 .f32) (x1 : Vec Ideal S32x5x5 .f32) : out0_2 x0 x1 = result Z x0 x1 := by
  funext i
  unfold out0_2
  simp only [View.ld_unit_zero (S := S1x32x256x256) zeros4]
  refine View.canon_apply_of_pieces (Val := Elt Ideal) (e := .f32) (S := S1x32x256x256) (result Z x0 x1) _ ?_ i (cover0_2 _ _ _ _ i)
  intro p hp xi
  simp only [List.mem_cons, List.not_mem_nil, or_false] at hp
  rcases hp with rfl | rfl | rfl | rfl
  · exact piece_eq x0 x1 24 inb_S32x5x5_S8x5x5_24_0_0 inb_S1x32x256x256_S1x8x256x256_0_24_0_0 _ (fun q y x => chunk3_apply x0 _ q y x) xi
  · exact piece_eq x0 x1 16 inb_S32x5x5_S8x5x5_16_0_0 inb_S1x32x256x256_S1x8x256x256_0_16_0_0 _ (fun q y x => chunk2_apply x0 _ q y x) xi
  · exact piece_eq x0 x1 8 inb_S32x5x5_S8x5x5_8_0_0 inb_S1x32x256x256_S1x8x256x256_0_8_0_0 _ (fun q y x => chunk1_apply x0 _ q y x) xi
  · exact piece_eq x0 x1 0 inb_S32x5x5_S8x5x5_0_0_0 inb_S1x32x256x256_S1x8x256x256_0_0_0_0 _ (fun q y x => chunk0_apply x0 _ q y x) xi

/-- The specification's result of one image and the weights, at a local index, is the result of the whole stack at the
    array index with the same channel and pixel coordinates and that image's batch coordinate. -/
theorem block_entry (X : S16x32x256x256.Idx → EReal) (W : S32x5x5.Idx → EReal) (x0 : S1x32x256x256.Idx → EReal) (b : Fin 16)
    (hx : ∀ (ch : Fin 32) (i j : Fin 256), x0 (ix4 (0 : Fin 1) ch i j) = X (ix4 b ch i j))
    (jl : S1x32x256x256.Idx) (ja : S16x32x256x256.Idx) (h0 : (ja 0).val = b.val) (h1 : (ja 1).val = (jl 1).val)
    (h2 : (ja 2).val = (jl 2).val) (h3 : (ja 3).val = (jl 3).val) :
    result Z x0 W jl = result Z X W ja := by
  show entry Z x0 W (jl 0) (jl 1) (jl 2) (jl 3) = entry Z X W (ja 0) (ja 1) (ja 2) (ja 3)
  have e0 : ja 0 = b := Fin.ext h0
  have e1 : ja 1 = jl 1 := Fin.ext h1
  have e2 : ja 2 = jl 2 := Fin.ext h2
  have e3 : ja 3 = jl 3 := Fin.ext h3
  have hl : (jl 0).val < 1 := (jl 0).isLt
  have el : jl 0 = (0 : Fin 1) := Fin.ext (by show (jl 0).val = 0; omega)
  rw [e0, e1, e2, e3, el]
  exact entry_congr Z x0 X W (0 : Fin 1) b hx (jl 1) (jl 2) (jl 3)

variable (m : (ℓ : Loc nD τ sig) → Buf (Elt Ideal) ℓ) (ρ : Dev nD → PrngReg)

/-- The printed index maps over the sixteen grid points: the images' and the result's block index is `(t, 0, 0, 0)`,
    the weights' `(0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- WHAT POINT `t` WRITES BACK is block `t` of the specification's result of the argument arrays: the block of images
    it read is image `t`, and the weights' block is the whole bank. -/
theorem flushed_eq (c : Dev nD) (t : Fin cfg0.N) :
    (dats m 0 c).flushed 2 t
      = ((cfg0.win 2).blk t).view.read (Elt Ideal) (result Z (V m c main_arg0) (V m c main_arg1)) := by
  rw [Cert.KernelIdeal.Value.flushed2, out_eq]
  obtain ⟨e00, e01, e02, e03, e10, e11, e12, e20, e21, e22, e23⟩ := idx_facts t
  have ht : t.val < 16 := t.isLt
  have hW : iblk m c 1 t = V m c main_arg1 := by
    funext y
    show V m c main_arg1 (((cfg0.win 1).blk t).view.emb y) = V m c main_arg1 y
    refine congrArg _ (funext fun a => Fin.ext ?_)
    match a with
    | ⟨0, _⟩ => show win0_1.index t (0 : Fin 3) * 32 + 1 * (y 0).val = (y 0).val; omega
    | ⟨1, _⟩ => show win0_1.index t (1 : Fin 3) * 5 + 1 * (y 1).val = (y 1).val; omega
    | ⟨2, _⟩ => show win0_1.index t (2 : Fin 3) * 5 + 1 * (y 2).val = (y 2).val; omega
  rw [hW]
  have hx : ∀ (ch : Fin 32) (i j : Fin 256),
      (iblk m c 0 t : S1x32x256x256.Idx → EReal) (ix4 (0 : Fin 1) ch i j) = V m c main_arg0 (ix4 (⟨t.val, ht⟩ : Fin 16) ch i j) := by
    intro ch i' j'
    show V m c main_arg0 (((cfg0.win 0).blk t).view.emb (ix4 (0 : Fin 1) ch i' j')) = V m c main_arg0 (ix4 ⟨t.val, ht⟩ ch i' j')
    refine congrArg _ (funext fun a => Fin.ext ?_)
    match a with
    | ⟨0, _⟩ => show win0_0.index t (0 : Fin 4) * 1 + 1 * 0 = t.val; omega
    | ⟨1, _⟩ => show win0_0.index t (1 : Fin 4) * 32 + 1 * ch.val = ch.val; omega
    | ⟨2, _⟩ => show win0_0.index t (2 : Fin 4) * 256 + 1 * i'.val = i'.val; omega
    | ⟨3, _⟩ => show win0_0.index t (3 : Fin 4) * 256 + 1 * j'.val = j'.val; omega
  funext j
  have hj0 : (j 0).val < 1 := (j 0).isLt
  rw [View.read_apply]
  have hj1 : (j 1).val < 32 := (j 1).isLt
  have hj2 : (j 2).val < 256 := (j 2).isLt
  have hj3 : (j 3).val < 256 := (j 3).isLt
  have hemb : ((cfg0.win 2).blk t).view.emb j
      = ix4 (⟨t.val, ht⟩ : Fin 16) (⟨(j 1).val, hj1⟩ : Fin 32) (⟨(j 2).val, hj2⟩ : Fin 256) (⟨(j 3).val, hj3⟩ : Fin 256) := by
    funext a; apply Fin.ext
    match a with
    | ⟨0, _⟩ => show win0_2.index t (0 : Fin 4) * 1 + 1 * (j 0).val = t.val; omega
    | ⟨1, _⟩ => show win0_2.index t (1 : Fin 4) * 32 + 1 * (j 1).val = (j 1).val; omega
    | ⟨2, _⟩ => show win0_2.index t (2 : Fin 4) * 256 + 1 * (j 2).val = (j 2).val; omega
    | ⟨3, _⟩ => show win0_2.index t (3 : Fin 4) * 256 + 1 * (j 3).val = (j 3).val; omega
  have hloc : ((cfg0.win 2).xinj (grid0.coords t) j : S1x32x256x256.Idx)
      = ix4 (0 : Fin 1) (⟨(j 1).val, hj1⟩ : Fin 32) (⟨(j 2).val, hj2⟩ : Fin 256) (⟨(j 3).val, hj3⟩ : Fin 256) := by
    funext a; apply Fin.ext
    match a with
    | ⟨0, _⟩ => show (j 0).val = 0; omega
    | ⟨1, _⟩ => rfl
    | ⟨2, _⟩ => rfl
    | ⟨3, _⟩ => rfl
  show result (B := 1) Z (iblk m c 0 t) (V m c main_arg1) ((cfg0.win 2).xinj (grid0.coords t) j) = _
  rw [hloc, hemb, result_ix4, result_ix4]
  exact entry_congr Z (iblk m c 0 t) (V m c main_arg0) (V m c main_arg1) (0 : Fin 1) ⟨t.val, ht⟩ hx _ _ _

/-- An index of the array is in point `t`'s block iff each coordinate is in the block's range on its axis. -/
theorem mem_blk (t : Fin cfg0.N) (i : S16x32x256x256.Idx) :
    i ∈ ((cfg0.win 2).blk t).view.set ↔ ∀ a : Fin 4, win0_2.index t a * S1x32x256x256.size a ≤ (i a).val
      ∧ (i a).val < win0_2.index t a * S1x32x256x256.size a + S1x32x256x256.size a := by
  show i ∈ ((View.whole main_v0).slice (win0_2.rect t)).set ↔ _
  rw [View.set_slice_whole, Rect.mem_set_unit]
  exact Iff.rfl

/-- The sixteen blocks tile the array: index `i` is in the block of the point that is its image coordinate. -/
theorem covered (i : S16x32x256x256.Idx) :
    ∃ t : Fin cfg0.N, (cfg0.win 2).flush t = true ∧ i ∈ ((cfg0.win 2).blk t).view.set := by
  have h0 : (i 0).val < 16 := (i 0).isLt
  have h1 : (i 1).val < 32 := (i 1).isLt
  have h2 : (i 2).val < 256 := (i 2).isLt
  have h3 : (i 3).val < 256 := (i 3).isLt
  refine ⟨⟨(i 0).val, h0⟩, flush0_2 _, ?_⟩
  obtain ⟨-, -, -, -, -, -, -, e20, e21, e22, e23⟩ := idx_facts ⟨(i 0).val, h0⟩
  rw [mem_blk]
  intro a
  match a with
  | ⟨0, _⟩ =>
    show win0_2.index ⟨(i 0).val, h0⟩ (0 : Fin 4) * 1 ≤ (i 0).val ∧ (i 0).val < win0_2.index ⟨(i 0).val, h0⟩ (0 : Fin 4) * 1 + 1
    rw [e20]; show (i 0).val * 1 ≤ (i 0).val ∧ (i 0).val < (i 0).val * 1 + 1; omega
  | ⟨1, _⟩ =>
    show win0_2.index ⟨(i 0).val, h0⟩ (1 : Fin 4) * 32 ≤ (i 1).val ∧ (i 1).val < win0_2.index ⟨(i 0).val, h0⟩ (1 : Fin 4) * 32 + 32
    rw [e21]; omega
  | ⟨2, _⟩ =>
    show win0_2.index ⟨(i 0).val, h0⟩ (2 : Fin 4) * 256 ≤ (i 2).val ∧ (i 2).val < win0_2.index ⟨(i 0).val, h0⟩ (2 : Fin 4) * 256 + 256
    rw [e22]; omega
  | ⟨3, _⟩ =>
    show win0_2.index ⟨(i 0).val, h0⟩ (3 : Fin 4) * 256 ≤ (i 3).val ∧ (i 3).val < win0_2.index ⟨(i 0).val, h0⟩ (3 : Fin 4) * 256 + 256
    rw [e23]; omega

/-- THE ARRAY after the run: the specification's result of the argument arrays. -/
theorem final (c : Dev nD) :
    (dats m 0 c).arrAt 2 cfg0.N
      = result Z (m ((c : Thread nD τ).loc main_arg0)) (m ((c : Thread nD τ).loc main_arg1)) :=
  (dats m 0 c).arrAt_eq_of_cover 2 _ (fun t _ => flushed_eq m c t) covered

/-- The kernel's run: its result array ends at the specification's result of the arguments, the arguments unchanged. -/
theorem run : θ_run defs (onTc (τ := τ) (main (F := Ideal))) ⟨m, fun _ => 0, ρ⟩ fun r => ∀ c : Dev nD,
      r.2.mem ((c : Thread nD τ).loc main_v0)
        = result Z (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Conv

end
-- ==== Proof.TapRef.lean ====
/-
  One tap of the reference's accumulation, read at an entry: the running maximum over the whole result array,
  joined with the minimum of a shifted window of the framed images (stretched over the 32 output channels) and one
  weight per output channel (stretched over the batch and the pixels). And the reference's frame: `pad` by two on
  each side of the two pixel axes.
-/
import Idealize.ShloMosaic.Lib.Pipeline.Value
import Idealize.ShloMosaic.Lib.KernelVsHost
import proofs.«138590_j1606317768738_1_alg».proof.Proof.Spec

noncomputable section

namespace Cert.SemiConv

open Idealize.ShloMosaic Idealize.ShloMosaic.ValueIdx

/-- The accumulator after one more tap, at image `b`, output channel `o` and pixel `(y, x)`: the accumulator there, joined
    with the minimum of image `b`'s frame at `(y + dy, x + dx)` and the weight `(o, dy, dx)`. -/
theorem tapR_apply (d : EReal) (dy dx : Nat)
    (acc : FVec Ideal ⟨4, ![16, 32, 256, 256]⟩ .f32) (xp : FVec Ideal ⟨3, ![16, 260, 260]⟩ .f32) (k : FVec Ideal ⟨3, ![32, 5, 5]⟩ .f32)
    (h1 : (⟨3, ![16, 260, 260]⟩ : Shape).Slices ![0, dy, dx] ⟨3, ![16, 256, 256]⟩)
    (h2 : (⟨3, ![32, 5, 5]⟩ : Shape).Slices ![0, dy, dx] ⟨3, ![32, 1, 1]⟩)
    (c1 : (⟨3, ![32, 1, 1]⟩ : Shape).ShapeCasts ⟨1, ![32]⟩)
    (b1 : (⟨3, ![16, 256, 256]⟩ : Shape).BroadcastsInDim ⟨4, ![16, 1, 256, 256]⟩ ![0, 2, 3])
    (b2 : (⟨4, ![16, 1, 256, 256]⟩ : Shape).BroadcastsInDim ⟨4, ![16, 32, 256, 256]⟩ ![0, 1, 2, 3])
    (b3 : (⟨1, ![32]⟩ : Shape).BroadcastsInDim ⟨4, ![1, 32, 1, 1]⟩ ![1])
    (b4 : (⟨4, ![1, 32, 1, 1]⟩ : Shape).BroadcastsInDim ⟨4, ![16, 32, 256, 256]⟩ ![0, 1, 2, 3])
    (b : Fin 16) (o : Fin 32) (y x : Fin 256) :
    maximumf acc (minimumf
        (broadcastInDim ⟨4, ![16, 32, 256, 256]⟩ ![0, 1, 2, 3] b2
          (broadcastInDim ⟨4, ![16, 1, 256, 256]⟩ ![0, 2, 3] b1 (extractStridedSlice ⟨3, ![16, 256, 256]⟩ ![0, dy, dx] xp h1)))
        (broadcastInDim ⟨4, ![16, 32, 256, 256]⟩ ![0, 1, 2, 3] b4
          (broadcastInDim ⟨4, ![1, 32, 1, 1]⟩ ![1] b3
            (shapeCast ⟨1, ![32]⟩ (extractStridedSlice ⟨3, ![32, 1, 1]⟩ ![0, dy, dx] k h2) c1))))
      (ix4 b o y x)
    = max (acc (ix4 b o y x)) (min (nat3 d xp b (y.val + dy) (x.val + dx)) (nat3 d k o dy dx)) := by
  have hdy : dy + 256 ≤ 260 := h1.2 (1 : Fin 3)
  have hdx : dx + 256 ≤ 260 := h1.2 (2 : Fin 3)
  have hy : y.val < 256 := y.isLt
  have hx : x.val < 256 := x.isLt
  rw [maximumf_apply, minimumf_apply, nat3_of_lt d xp b _ _ (by omega) (by omega), nat3_of_lt d k o _ _ (by omega) (by omega)]
  congr 2
  · refine (broadcastInDim_apply _ b2 _ (ix4 b o y x) (ix4 b (0 : Fin 1) y x) (fun a => ?_)).trans ?_
    · match a with
      | ⟨0, _⟩ => show b.val = if (16 : Nat) = 1 then 0 else b.val; rw [if_neg (by decide)]
      | ⟨1, _⟩ => show (0 : Nat) = if (1 : Nat) = 1 then 0 else o.val; rw [if_pos rfl]
      | ⟨2, _⟩ => show y.val = if (256 : Nat) = 1 then 0 else y.val; rw [if_neg (by decide)]
      | ⟨3, _⟩ => show x.val = if (256 : Nat) = 1 then 0 else x.val; rw [if_neg (by decide)]
    refine (broadcastInDim_apply _ b1 _ (ix4 b (0 : Fin 1) y x) (ix3 b y x) (fun a => ?_)).trans ?_
    · match a with
      | ⟨0, _⟩ => show b.val = if (16 : Nat) = 1 then 0 else b.val; rw [if_neg (by decide)]
      | ⟨1, _⟩ => show y.val = if (256 : Nat) = 1 then 0 else y.val; rw [if_neg (by decide)]
      | ⟨2, _⟩ => show x.val = if (256 : Nat) = 1 then 0 else x.val; rw [if_neg (by decide)]
    exact extractStridedSlice_apply ![0, dy, dx] xp h1 (ix3 b y x) _ (fun a => match a with
      | ⟨0, _⟩ => by show b.val = 0 + b.val; omega
      | ⟨1, _⟩ => by show y.val + dy = dy + y.val; omega
      | ⟨2, _⟩ => by show x.val + dx = dx + x.val; omega)
  · refine (broadcastInDim_apply _ b4 _ (ix4 b o y x) (ix4 (0 : Fin 1) o (0 : Fin 1) (0 : Fin 1)) (fun a => ?_)).trans ?_
    · match a with
      | ⟨0, _⟩ => show (0 : Nat) = if (1 : Nat) = 1 then 0 else b.val; rw [if_pos rfl]
      | ⟨1, _⟩ => show o.val = if (32 : Nat) = 1 then 0 else o.val; rw [if_neg (by decide)]
      | ⟨2, _⟩ => show (0 : Nat) = if (1 : Nat) = 1 then 0 else y.val; rw [if_pos rfl]
      | ⟨3, _⟩ => show (0 : Nat) = if (1 : Nat) = 1 then 0 else x.val; rw [if_pos rfl]
    refine (broadcastInDim_apply _ b3 _ (ix4 (0 : Fin 1) o (0 : Fin 1) (0 : Fin 1)) (ix1 o) (fun a => ?_)).trans ?_
    · match a with
      | ⟨0, _⟩ => show o.val = if (32 : Nat) = 1 then 0 else o.val; rw [if_neg (by decide)]
    refine (shapeCast_apply _ c1 (ix1 o) (ix3 o (0 : Fin 1) (0 : Fin 1)) ?_).trans ?_
    · rw [Shape.rowMajor_val_one, Shape.rowMajor_val_three]
      show (o.val * 1 + 0) * 1 + 0 = o.val
      omega
    exact extractStridedSlice_apply ![0, dy, dx] k h2 (ix3 o (0 : Fin 1) (0 : Fin 1)) _ (fun a => match a with
      | ⟨0, _⟩ => by show o.val = 0 + o.val; omega
      | ⟨1, _⟩ => by show dy = dy + 0; omega
      | ⟨2, _⟩ => by show dx = dx + 0; omega)

/-- The reference's framed images at natural coordinates: the specification's `padded` of image `b`. -/
theorem framedR_apply (z : EReal) (M : (⟨3, ![16, 256, 256]⟩ : Shape).Idx → EReal) (v : (⟨0, ![]⟩ : Shape).Idx → EReal)
    (hp : (⟨3, ![16, 256, 256]⟩ : Shape).Pads ![0, 2, 2] ![0, 2, 2] ![0, 0, 0] ⟨3, ![16, 260, 260]⟩)
    (hu : 0 < (⟨0, ![]⟩ : Shape).numel) (hz : v (Shape.Idx.first hu) = z) (b : Fin 16) (r s : Nat) :
    nat3 z (pad ⟨3, ![16, 260, 260]⟩ ![0, 2, 2] ![0, 2, 2] ![0, 0, 0] M v hp hu) b r s
      = padded z (fun i j => M (ix3 b i j)) r s := by
  unfold nat3 padded
  by_cases hin : r < 260 ∧ s < 260
  · rw [dif_pos hin]
    by_cases hc : (2 ≤ r ∧ r < 258) ∧ (2 ≤ s ∧ s < 258)
    · rw [dif_pos hc]
      exact pad_apply_of_inside _ _ _ M v hp hu _ (ix3 b ⟨r - 2, by omega⟩ ⟨s - 2, by omega⟩) (fun a => match a with
        | ⟨0, _⟩ => by show b.val = 0 + b.val * (0 + 1); omega
        | ⟨1, _⟩ => by show r = 2 + (r - 2) * (0 + 1); omega
        | ⟨2, _⟩ => by show s = 2 + (s - 2) * (0 + 1); omega)
    · rw [dif_neg hc, ← hz]
      by_cases hr : 2 ≤ r ∧ r < 258
      · refine pad_apply_of_not_inside _ _ _ M v hp hu _ (2 : Fin 3) ?_
        show ¬(2 ≤ s ∧ (s - 2) % (0 + 1) = 0 ∧ (s - 2) / (0 + 1) < 256)
        rintro ⟨h1, -, h3⟩
        rw [Nat.zero_add, Nat.div_one] at h3
        exact hc ⟨hr, by omega, by omega⟩
      · refine pad_apply_of_not_inside _ _ _ M v hp hu _ (1 : Fin 3) ?_
        show ¬(2 ≤ r ∧ (r - 2) % (0 + 1) = 0 ∧ (r - 2) / (0 + 1) < 256)
        rintro ⟨h1, -, h3⟩
        rw [Nat.zero_add, Nat.div_one] at h3
        exact hr ⟨by omega, by omega⟩
  · rw [dif_neg hin, dif_neg (fun h => hin ⟨by omega, by omega⟩)]

end Cert.SemiConv

end
-- ==== Proof.RefValue.lean ====
/-
  The reference's result, read off the fold of its 232 host operations window by window. After the channel maximum
  and its frame, each of the 25 taps is nine operations: a 256×256 window of the framed images cut at the tap's offset
  and stretched over the 32 output channels, the tap's weight per output channel stretched over batch and pixels,
  their minimum, and the maximum with the running result. The printed windows of @main cut two taps in the middle;
  each window's live values are stated as functions of the values it finds, and composed. At an entry the composed
  term is the specification's max-min correlation.
-/
import proofs.«138590_j1606317768738_1_alg».proof.Proof.ReferenceWindows
import Idealize.ShloMosaic.Lib.Pipeline.Frame
import proofs.«138590_j1606317768738_1_alg».proof.Proof.Spec
import proofs.«138590_j1606317768738_1_alg».proof.Proof.TapRef
import proofs.«138590_j1606317768738_1_alg».proof.Proof.ChanMax

set_option maxRecDepth 16384

noncomputable section

namespace Cert.ReferenceIdeal.Conv

open Cert.ReferenceIdeal Cert.ReferenceIdeal.Gen Cert.ReferenceIdeal.Windows
open Idealize.ShloMosaic Idealize.ShloMosaic.TcCoe Idealize.SL.Sem Idealize.ShloMosaic.StableHlo
open Idealize.ShloMosaic.ValueIdx Cert.SemiConv

section AnyValues

variable {F : FTy → Type} [FloatOps F]

/-- The framed channel maximum of the images `x`: the maximum over the channel axis from −∞, padded by two of −∞ on
    each side of the two pixel axes. -/
def framed (x : FVec F S16x32x256x256 .f32) : FVec F S16x260x260 .f32 :=
  pad S16x260x260 ![0, 2, 2] ![0, 2, 2] ![0, 0, 0]
      (Host.reduce FloatOps.maximumf (x : FVec F S16x32x256x256 .f32) (constant S_ .f32 0xFF800000#32) reducesTo_S16x32x256x256_S16x256x256_d1 h_S_)
      (id (constant S_ .f32 0xFF800000#32)) pads_S16x256x256_S16x260x260_000_220_220 h_S_

/-- The tap's window of the framed images, with a unit channel axis … -/
def window1 (dy dx : Nat) (h1 : S16x260x260.Slices ![0, dy, dx] S16x256x256) (xp : FVec F S16x260x260 .f32) :
    FVec F S16x1x256x256 .f32 :=
  broadcastInDim S16x1x256x256 ![0, 2, 3] bcast_S16x256x256_S16x1x256x256_0_2_3 (extractStridedSlice S16x256x256 ![0, dy, dx] xp h1)

/-- … stretched over the 32 output channels. -/
def stretchW (w : FVec F S16x1x256x256 .f32) : FVec F S16x32x256x256 .f32 :=
  broadcastInDim S16x32x256x256 ![0, 1, 2, 3] bcast_S16x1x256x256_S16x32x256x256_0_1_2_3 w

/-- The tap's weights, one per output channel, cut out of the bank … -/
def weight0 (dy dx : Nat) (h2 : S32x5x5.Slices ![0, dy, dx] S32x1x1) (k : FVec F S32x5x5 .f32) : FVec F S32x1x1 .f32 :=
  extractStridedSlice S32x1x1 ![0, dy, dx] k h2

/-- … laid along the channel axis of a [1, 32, 1, 1] array … -/
def weight1 (k0 : FVec F S32x1x1 .f32) : FVec F S1x32x1x1 .f32 :=
  broadcastInDim S1x32x1x1 ![1] bcast_S32_S1x32x1x1_1 (shapeCast S32 k0 shapeCasts_S32x1x1_S32)

/-- … stretched over batch and pixels. -/
def stretchK (k1 : FVec F S1x32x1x1 .f32) : FVec F S16x32x256x256 .f32 :=
  broadcastInDim S16x32x256x256 ![0, 1, 2, 3] bcast_S1x32x1x1_S16x32x256x256_0_1_2_3 k1

/-- One tap: the running result joined with the minimum of the tap's window and the tap's weights. -/
def tap (dy dx : Nat) (h1 : S16x260x260.Slices ![0, dy, dx] S16x256x256) (h2 : S32x5x5.Slices ![0, dy, dx] S32x1x1)
    (xp : FVec F S16x260x260 .f32) (k : FVec F S32x5x5 .f32) (acc : FVec F S16x32x256x256 .f32) : FVec F S16x32x256x256 .f32 :=
  maximumf acc (minimumf (stretchW (window1 dy dx h1 xp)) (stretchK (weight1 (weight0 dy dx h2 k))))

/-- The result before the first tap: −∞ everywhere. -/
def start : FVec F S16x32x256x256 .f32 :=
  broadcastInDim S16x32x256x256 ![] bcast_S_S16x32x256x256 (constant S_ .f32 0xFF800000#32)

variable (V : Valuation τ sig (Elt F))

/-! ### Window 0: the channel maximum, its frame, and taps (0,0) … (1,0) -/

/-! A typed reference to a literal buffer carries contents unchanged (its type equation holds by computation). -/

theorem toBuf_v1 (v : (⟨S16x260x260, .f32⟩ : BufTy).Contents (Elt F)) :
    ((TRef.of (T := ⟨S16x260x260, .f32⟩) main_v1).toBuf v : (⟨S16x260x260, .f32⟩ : BufTy).Contents (Elt F)) = v := rfl
theorem ofBuf_v0 (v : (⟨S16x256x256, .f32⟩ : BufTy).Contents (Elt F)) :
    ((TRef.of (T := ⟨S16x256x256, .f32⟩) main_v0).ofBuf v : (⟨S16x256x256, .f32⟩ : BufTy).Contents (Elt F)) = v := rfl
theorem ofBuf_call0_v0 (v : (⟨S_, .f32⟩ : BufTy).Contents (Elt F)) :
    ((TRef.of (T := ⟨S_, .f32⟩) main_call0_v0).ofBuf v : (⟨S_, .f32⟩ : BufTy).Contents (Elt F)) = v := rfl
theorem toBuf_call0_v0 (v : (⟨S_, .f32⟩ : BufTy).Contents (Elt F)) :
    ((TRef.of (T := ⟨S_, .f32⟩) main_call0_v0).toBuf v : (⟨S_, .f32⟩ : BufTy).Contents (Elt F)) = v := rfl
theorem ofBuf_cst_0 (v : (⟨S_, .f32⟩ : BufTy).Contents (Elt F)) :
    ((TRef.of (T := ⟨S_, .f32⟩) main_cst_0).ofBuf v : (⟨S_, .f32⟩ : BufTy).Contents (Elt F)) = v := rfl

theorem part0_frame : after ops_part0 V (Proc.devRef .tc main_v1) = framed (V (Proc.devRef .tc main_arg0)) := by
  unfold ops_part0
  after_results_simp
  rw [toBuf_v1, ofBuf_v0, ofBuf_call0_v0, toBuf_call0_v0, ofBuf_cst_0]
  rfl

theorem part0_acc : after ops_part0 V (Proc.devRef .tc main_v56)
    = tap 1 0 slices_S16x260x260_S16x256x256_0_1_0 slices_S32x5x5_S32x1x1_0_1_0 (framed (V (Proc.devRef .tc main_arg0))) (V (Proc.devRef .tc main_arg1))
      (tap 0 4 slices_S16x260x260_S16x256x256_0_0_4 slices_S32x5x5_S32x1x1_0_0_4 (framed (V (Proc.devRef .tc main_arg0))) (V (Proc.devRef .tc main_arg1))
      (tap 0 3 slices_S16x260x260_S16x256x256_0_0_3 slices_S32x5x5_S32x1x1_0_0_3 (framed (V (Proc.devRef .tc main_arg0))) (V (Proc.devRef .tc main_arg1))
      (tap 0 2 slices_S16x260x260_S16x256x256_0_0_2 slices_S32x5x5_S32x1x1_0_0_2 (framed (V (Proc.devRef .tc main_arg0))) (V (Proc.devRef .tc main_arg1))
      (tap 0 1 slices_S16x260x260_S16x256x256_0_0_1 slices_S32x5x5_S32x1x1_0_0_1 (framed (V (Proc.devRef .tc main_arg0))) (V (Proc.devRef .tc main_arg1))
      (tap 0 0 slices_S16x260x260_S16x256x256_0_0_0 slices_S32x5x5_S32x1x1_0_0_0 (framed (V (Proc.devRef .tc main_arg0))) (V (Proc.devRef .tc main_arg1))
      (start)))))) := by
  unfold ops_part0
  after_results_simp
  rw [toBuf_v1, ofBuf_v0, ofBuf_call0_v0, toBuf_call0_v0, ofBuf_cst_0]
  rfl

theorem part0_arg0 : after ops_part0 V (Proc.devRef .tc main_arg0) = V (Proc.devRef .tc main_arg0) := by
  unfold ops_part0
  after_results_simp <;> rfl
theorem part0_arg1 : after ops_part0 V (Proc.devRef .tc main_arg1) = V (Proc.devRef .tc main_arg1) := by
  unfold ops_part0
  after_results_simp <;> rfl

/-! ### Window 1: taps (1,1) … (2,1), and the window and weights of tap (2,2) -/

theorem part1_acc : after ops_part1 V (Proc.devRef .tc main_v110)
    = tap 2 1 slices_S16x260x260_S16x256x256_0_2_1 slices_S32x5x5_S32x1x1_0_2_1 (V (Proc.devRef .tc main_v1)) (V (Proc.devRef .tc main_arg1))
      (tap 2 0 slices_S16x260x260_S16x256x256_0_2_0 slices_S32x5x5_S32x1x1_0_2_0 (V (Proc.devRef .tc main_v1)) (V (Proc.devRef .tc main_arg1))
      (tap 1 4 slices_S16x260x260_S16x256x256_0_1_4 slices_S32x5x5_S32x1x1_0_1_4 (V (Proc.devRef .tc main_v1)) (V (Proc.devRef .tc main_arg1))
      (tap 1 3 slices_S16x260x260_S16x256x256_0_1_3 slices_S32x5x5_S32x1x1_0_1_3 (V (Proc.devRef .tc main_v1)) (V (Proc.devRef .tc main_arg1))
      (tap 1 2 slices_S16x260x260_S16x256x256_0_1_2 slices_S32x5x5_S32x1x1_0_1_2 (V (Proc.devRef .tc main_v1)) (V (Proc.devRef .tc main_arg1))
      (tap 1 1 slices_S16x260x260_S16x256x256_0_1_1 slices_S32x5x5_S32x1x1_0_1_1 (V (Proc.devRef .tc main_v1)) (V (Proc.devRef .tc main_arg1))
      (V (Proc.devRef .tc main_v56))))))) := by
  unfold ops_part1
  after_results_simp <;> rfl

theorem part1_weights : after ops_part1 V (Proc.devRef .tc main_v115)
    = weight1 (weight0 2 2 slices_S32x5x5_S32x1x1_0_2_2 (V (Proc.devRef .tc main_arg1))) := by
  unfold ops_part1
  after_results_simp <;> rfl
theorem part1_window : after ops_part1 V (Proc.devRef .tc main_v116)
    = stretchW (window1 2 2 slices_S16x260x260_S16x256x256_0_2_2 (V (Proc.devRef .tc main_v1))) := by
  unfold ops_part1
  after_results_simp <;> rfl
theorem part1_frame : after ops_part1 V (Proc.devRef .tc main_v1) = V (Proc.devRef .tc main_v1) := by
  unfold ops_part1
  after_results_simp <;> rfl
theorem part1_arg0 : after ops_part1 V (Proc.devRef .tc main_arg0) = V (Proc.devRef .tc main_arg0) := by
  unfold ops_part1
  after_results_simp <;> rfl
theorem part1_arg1 : after ops_part1 V (Proc.devRef .tc main_arg1) = V (Proc.devRef .tc main_arg1) := by
  unfold ops_part1
  after_results_simp <;> rfl

/-! ### Window 2: the rest of tap (2,2), taps (2,3) … (3,3), and the window and weights of tap (3,4) as cut -/

theorem part2_acc : after ops_part2 V (Proc.devRef .tc main_v173)
    = tap 3 3 slices_S16x260x260_S16x256x256_0_3_3 slices_S32x5x5_S32x1x1_0_3_3 (V (Proc.devRef .tc main_v1)) (V (Proc.devRef .tc main_arg1))
      (tap 3 2 slices_S16x260x260_S16x256x256_0_3_2 slices_S32x5x5_S32x1x1_0_3_2 (V (Proc.devRef .tc main_v1)) (V (Proc.devRef .tc main_arg1))
      (tap 3 1 slices_S16x260x260_S16x256x256_0_3_1 slices_S32x5x5_S32x1x1_0_3_1 (V (Proc.devRef .tc main_v1)) (V (Proc.devRef .tc main_arg1))
      (tap 3 0 slices_S16x260x260_S16x256x256_0_3_0 slices_S32x5x5_S32x1x1_0_3_0 (V (Proc.devRef .tc main_v1)) (V (Proc.devRef .tc main_arg1))
      (tap 2 4 slices_S16x260x260_S16x256x256_0_2_4 slices_S32x5x5_S32x1x1_0_2_4 (V (Proc.devRef .tc main_v1)) (V (Proc.devRef .tc main_arg1))
      (tap 2 3 slices_S16x260x260_S16x256x256_0_2_3 slices_S32x5x5_S32x1x1_0_2_3 (V (Proc.devRef .tc main_v1)) (V (Proc.devRef .tc main_arg1))
      (maximumf (V (Proc.devRef .tc main_v110)) (minimumf (V (Proc.devRef .tc main_v116)) (stretchK (V (Proc.devRef .tc main_v115)))))))))) := by
  unfold ops_part2
  after_results_simp <;> rfl

theorem part2_window : after ops_part2 V (Proc.devRef .tc main_v175)
    = window1 3 4 slices_S16x260x260_S16x256x256_0_3_4 (V (Proc.devRef .tc main_v1)) := by
  unfold ops_part2
  after_results_simp <;> rfl
theorem part2_weights : after ops_part2 V (Proc.devRef .tc main_v176)
    = weight0 3 4 slices_S32x5x5_S32x1x1_0_3_4 (V (Proc.devRef .tc main_arg1)) := by
  unfold ops_part2
  after_results_simp <;> rfl
theorem part2_frame : after ops_part2 V (Proc.devRef .tc main_v1) = V (Proc.devRef .tc main_v1) := by
  unfold ops_part2
  after_results_simp <;> rfl
theorem part2_arg0 : after ops_part2 V (Proc.devRef .tc main_arg0) = V (Proc.devRef .tc main_arg0) := by
  unfold ops_part2
  after_results_simp <;> rfl
theorem part2_arg1 : after ops_part2 V (Proc.devRef .tc main_arg1) = V (Proc.devRef .tc main_arg1) := by
  unfold ops_part2
  after_results_simp <;> rfl

/-! ### Window 3: the rest of tap (3,4), and taps (4,0) … (4,4) -/

theorem part3_acc : after ops_part3 V (Proc.devRef .tc main_v227)
    = tap 4 4 slices_S16x260x260_S16x256x256_0_4_4 slices_S32x5x5_S32x1x1_0_4_4 (V (Proc.devRef .tc main_v1)) (V (Proc.devRef .tc main_arg1))
      (tap 4 3 slices_S16x260x260_S16x256x256_0_4_3 slices_S32x5x5_S32x1x1_0_4_3 (V (Proc.devRef .tc main_v1)) (V (Proc.devRef .tc main_arg1))
      (tap 4 2 slices_S16x260x260_S16x256x256_0_4_2 slices_S32x5x5_S32x1x1_0_4_2 (V (Proc.devRef .tc main_v1)) (V (Proc.devRef .tc main_arg1))
      (tap 4 1 slices_S16x260x260_S16x256x256_0_4_1 slices_S32x5x5_S32x1x1_0_4_1 (V (Proc.devRef .tc main_v1)) (V (Proc.devRef .tc main_arg1))
      (tap 4 0 slices_S16x260x260_S16x256x256_0_4_0 slices_S32x5x5_S32x1x1_0_4_0 (V (Proc.devRef .tc main_v1)) (V (Proc.devRef .tc main_arg1))
      (maximumf (V (Proc.devRef .tc main_v173)) (minimumf (stretchW (V (Proc.devRef .tc main_v175))) (stretchK (weight1 (V (Proc.devRef .tc main_v176)))))))))) := by
  unfold ops_part3
  after_results_simp <;> rfl

theorem part3_arg0 : after ops_part3 V (Proc.devRef .tc main_arg0) = V (Proc.devRef .tc main_arg0) := by
  unfold ops_part3
  after_results_simp <;> rfl
theorem part3_arg1 : after ops_part3 V (Proc.devRef .tc main_arg1) = V (Proc.devRef .tc main_arg1) := by
  unfold ops_part3
  after_results_simp <;> rfl

/-! ### The four windows composed -/

/-- The arguments are never written. -/
theorem kept_arg0 : after ops V (Proc.devRef .tc main_arg0) = V (Proc.devRef .tc main_arg0) := by
  unfold ops
  rw [StableHlo.after_append, StableHlo.after_append, StableHlo.after_append, part3_arg0, part2_arg0, part1_arg0, part0_arg0]
theorem kept_arg1 : after ops V (Proc.devRef .tc main_arg1) = V (Proc.devRef .tc main_arg1) := by
  unfold ops
  rw [StableHlo.after_append, StableHlo.after_append, StableHlo.after_append, part3_arg1, part2_arg1, part1_arg1, part0_arg1]

/-- The result: the 25 taps, in row-major order, from −∞, over the framed channel maximum and the weights. -/
theorem result_eq : after ops V (Proc.devRef .tc main_v227)
    = tap 4 4 slices_S16x260x260_S16x256x256_0_4_4 slices_S32x5x5_S32x1x1_0_4_4 (framed (V (Proc.devRef .tc main_arg0))) (V (Proc.devRef .tc main_arg1))
      (tap 4 3 slices_S16x260x260_S16x256x256_0_4_3 slices_S32x5x5_S32x1x1_0_4_3 (framed (V (Proc.devRef .tc main_arg0))) (V (Proc.devRef .tc main_arg1))
      (tap 4 2 slices_S16x260x260_S16x256x256_0_4_2 slices_S32x5x5_S32x1x1_0_4_2 (framed (V (Proc.devRef .tc main_arg0))) (V (Proc.devRef .tc main_arg1))
      (tap 4 1 slices_S16x260x260_S16x256x256_0_4_1 slices_S32x5x5_S32x1x1_0_4_1 (framed (V (Proc.devRef .tc main_arg0))) (V (Proc.devRef .tc main_arg1))
      (tap 4 0 slices_S16x260x260_S16x256x256_0_4_0 slices_S32x5x5_S32x1x1_0_4_0 (framed (V (Proc.devRef .tc main_arg0))) (V (Proc.devRef .tc main_arg1))
      (tap 3 4 slices_S16x260x260_S16x256x256_0_3_4 slices_S32x5x5_S32x1x1_0_3_4 (framed (V (Proc.devRef .tc main_arg0))) (V (Proc.devRef .tc main_arg1))
      (tap 3 3 slices_S16x260x260_S16x256x256_0_3_3 slices_S32x5x5_S32x1x1_0_3_3 (framed (V (Proc.devRef .tc main_arg0))) (V (Proc.devRef .tc main_arg1))
      (tap 3 2 slices_S16x260x260_S16x256x256_0_3_2 slices_S32x5x5_S32x1x1_0_3_2 (framed (V (Proc.devRef .tc main_arg0))) (V (Proc.devRef .tc main_arg1))
      (tap 3 1 slices_S16x260x260_S16x256x256_0_3_1 slices_S32x5x5_S32x1x1_0_3_1 (framed (V (Proc.devRef .tc main_arg0))) (V (Proc.devRef .tc main_arg1))
      (tap 3 0 slices_S16x260x260_S16x256x256_0_3_0 slices_S32x5x5_S32x1x1_0_3_0 (framed (V (Proc.devRef .tc main_arg0))) (V (Proc.devRef .tc main_arg1))
      (tap 2 4 slices_S16x260x260_S16x256x256_0_2_4 slices_S32x5x5_S32x1x1_0_2_4 (framed (V (Proc.devRef .tc main_arg0))) (V (Proc.devRef .tc main_arg1))
      (tap 2 3 slices_S16x260x260_S16x256x256_0_2_3 slices_S32x5x5_S32x1x1_0_2_3 (framed (V (Proc.devRef .tc main_arg0))) (V (Proc.devRef .tc main_arg1))
      (tap 2 2 slices_S16x260x260_S16x256x256_0_2_2 slices_S32x5x5_S32x1x1_0_2_2 (framed (V (Proc.devRef .tc main_arg0))) (V (Proc.devRef .tc main_arg1))
      (tap 2 1 slices_S16x260x260_S16x256x256_0_2_1 slices_S32x5x5_S32x1x1_0_2_1 (framed (V (Proc.devRef .tc main_arg0))) (V (Proc.devRef .tc main_arg1))
      (tap 2 0 slices_S16x260x260_S16x256x256_0_2_0 slices_S32x5x5_S32x1x1_0_2_0 (framed (V (Proc.devRef .tc main_arg0))) (V (Proc.devRef .tc main_arg1))
      (tap 1 4 slices_S16x260x260_S16x256x256_0_1_4 slices_S32x5x5_S32x1x1_0_1_4 (framed (V (Proc.devRef .tc main_arg0))) (V (Proc.devRef .tc main_arg1))
      (tap 1 3 slices_S16x260x260_S16x256x256_0_1_3 slices_S32x5x5_S32x1x1_0_1_3 (framed (V (Proc.devRef .tc main_arg0))) (V (Proc.devRef .tc main_arg1))
      (tap 1 2 slices_S16x260x260_S16x256x256_0_1_2 slices_S32x5x5_S32x1x1_0_1_2 (framed (V (Proc.devRef .tc main_arg0))) (V (Proc.devRef .tc main_arg1))
      (tap 1 1 slices_S16x260x260_S16x256x256_0_1_1 slices_S32x5x5_S32x1x1_0_1_1 (framed (V (Proc.devRef .tc main_arg0))) (V (Proc.devRef .tc main_arg1))
      (tap 1 0 slices_S16x260x260_S16x256x256_0_1_0 slices_S32x5x5_S32x1x1_0_1_0 (framed (V (Proc.devRef .tc main_arg0))) (V (Proc.devRef .tc main_arg1))
      (tap 0 4 slices_S16x260x260_S16x256x256_0_0_4 slices_S32x5x5_S32x1x1_0_0_4 (framed (V (Proc.devRef .tc main_arg0))) (V (Proc.devRef .tc main_arg1))
      (tap 0 3 slices_S16x260x260_S16x256x256_0_0_3 slices_S32x5x5_S32x1x1_0_0_3 (framed (V (Proc.devRef .tc main_arg0))) (V (Proc.devRef .tc main_arg1))
      (tap 0 2 slices_S16x260x260_S16x256x256_0_0_2 slices_S32x5x5_S32x1x1_0_0_2 (framed (V (Proc.devRef .tc main_arg0))) (V (Proc.devRef .tc main_arg1))
      (tap 0 1 slices_S16x260x260_S16x256x256_0_0_1 slices_S32x5x5_S32x1x1_0_0_1 (framed (V (Proc.devRef .tc main_arg0))) (V (Proc.devRef .tc main_arg1))
      (tap 0 0 slices_S16x260x260_S16x256x256_0_0_0 slices_S32x5x5_S32x1x1_0_0_0 (framed (V (Proc.devRef .tc main_arg0))) (V (Proc.devRef .tc main_arg1))
      (start))))))))))))))))))))))))) := by
  unfold ops
  rw [StableHlo.after_append, StableHlo.after_append, StableHlo.after_append]
  rw [part3_acc, part2_acc, part2_window, part2_weights, part2_frame, part2_arg1]
  rw [part1_acc, part1_weights, part1_window, part1_frame, part1_arg1]
  rw [part0_acc, part0_frame, part0_arg1]
  rfl

end AnyValues

/-! ## At the extended reals: the composed term, read at an entry -/

/-- The bottom of the max-min semifield: the word 0xFF800000 (−∞) read at the extended reals. -/
abbrev Z : EReal := Ideal.ofBits .f32 0xFF800000#32

/-- One tap at an entry. -/
theorem tap_apply (dy dx : Nat) (h1 : S16x260x260.Slices ![0, dy, dx] S16x256x256) (h2 : S32x5x5.Slices ![0, dy, dx] S32x1x1)
    (xp : FVec Ideal S16x260x260 .f32) (k : FVec Ideal S32x5x5 .f32) (acc : FVec Ideal S16x32x256x256 .f32)
    (b : Fin 16) (o : Fin 32) (y x : Fin 256) :
    tap dy dx h1 h2 xp k acc (ix4 b o y x)
      = max (acc (ix4 b o y x)) (min (nat3 Z xp b (y.val + dy) (x.val + dx)) (nat3 Z k o dy dx)) :=
  tapR_apply Z dy dx acc xp k h1 h2 _ _ _ _ _ b o y x

/-- The framed channel maximum at natural coordinates of image `b`'s frame. -/
theorem framed_apply (x : FVec Ideal S16x32x256x256 .f32) (b : Fin 16) (r s : Nat) :
    nat3 Z (framed x) b r s = padded Z (chanMax Z x b) r s :=
  (framedR_apply Z _ _ _ _ rfl b r s).trans
    (congrArg (fun M : Fin 256 → Fin 256 → EReal => padded Z M r s)
      (funext fun i => funext fun j => chanMaxR_apply x _ _ _ b i j))

/-- The 25 taps from −∞ over the framed channel maximum, at an entry: the specification's entry. -/
theorem taps_apply (x : FVec Ideal S16x32x256x256 .f32) (k : FVec Ideal S32x5x5 .f32) (b : Fin 16) (o : Fin 32) (y x' : Fin 256) :
    (tap 4 4 slices_S16x260x260_S16x256x256_0_4_4 slices_S32x5x5_S32x1x1_0_4_4 (framed x) k
      (tap 4 3 slices_S16x260x260_S16x256x256_0_4_3 slices_S32x5x5_S32x1x1_0_4_3 (framed x) k
      (tap 4 2 slices_S16x260x260_S16x256x256_0_4_2 slices_S32x5x5_S32x1x1_0_4_2 (framed x) k
      (tap 4 1 slices_S16x260x260_S16x256x256_0_4_1 slices_S32x5x5_S32x1x1_0_4_1 (framed x) k
      (tap 4 0 slices_S16x260x260_S16x256x256_0_4_0 slices_S32x5x5_S32x1x1_0_4_0 (framed x) k
      (tap 3 4 slices_S16x260x260_S16x256x256_0_3_4 slices_S32x5x5_S32x1x1_0_3_4 (framed x) k
      (tap 3 3 slices_S16x260x260_S16x256x256_0_3_3 slices_S32x5x5_S32x1x1_0_3_3 (framed x) k
      (tap 3 2 slices_S16x260x260_S16x256x256_0_3_2 slices_S32x5x5_S32x1x1_0_3_2 (framed x) k
      (tap 3 1 slices_S16x260x260_S16x256x256_0_3_1 slices_S32x5x5_S32x1x1_0_3_1 (framed x) k
      (tap 3 0 slices_S16x260x260_S16x256x256_0_3_0 slices_S32x5x5_S32x1x1_0_3_0 (framed x) k
      (tap 2 4 slices_S16x260x260_S16x256x256_0_2_4 slices_S32x5x5_S32x1x1_0_2_4 (framed x) k
      (tap 2 3 slices_S16x260x260_S16x256x256_0_2_3 slices_S32x5x5_S32x1x1_0_2_3 (framed x) k
      (tap 2 2 slices_S16x260x260_S16x256x256_0_2_2 slices_S32x5x5_S32x1x1_0_2_2 (framed x) k
      (tap 2 1 slices_S16x260x260_S16x256x256_0_2_1 slices_S32x5x5_S32x1x1_0_2_1 (framed x) k
      (tap 2 0 slices_S16x260x260_S16x256x256_0_2_0 slices_S32x5x5_S32x1x1_0_2_0 (framed x) k
      (tap 1 4 slices_S16x260x260_S16x256x256_0_1_4 slices_S32x5x5_S32x1x1_0_1_4 (framed x) k
      (tap 1 3 slices_S16x260x260_S16x256x256_0_1_3 slices_S32x5x5_S32x1x1_0_1_3 (framed x) k
      (tap 1 2 slices_S16x260x260_S16x256x256_0_1_2 slices_S32x5x5_S32x1x1_0_1_2 (framed x) k
      (tap 1 1 slices_S16x260x260_S16x256x256_0_1_1 slices_S32x5x5_S32x1x1_0_1_1 (framed x) k
      (tap 1 0 slices_S16x260x260_S16x256x256_0_1_0 slices_S32x5x5_S32x1x1_0_1_0 (framed x) k
      (tap 0 4 slices_S16x260x260_S16x256x256_0_0_4 slices_S32x5x5_S32x1x1_0_0_4 (framed x) k
      (tap 0 3 slices_S16x260x260_S16x256x256_0_0_3 slices_S32x5x5_S32x1x1_0_0_3 (framed x) k
      (tap 0 2 slices_S16x260x260_S16x256x256_0_0_2 slices_S32x5x5_S32x1x1_0_0_2 (framed x) k
      (tap 0 1 slices_S16x260x260_S16x256x256_0_0_1 slices_S32x5x5_S32x1x1_0_0_1 (framed x) k
      (tap 0 0 slices_S16x260x260_S16x256x256_0_0_0 slices_S32x5x5_S32x1x1_0_0_0 (framed x) k
      (start)))))))))))))))))))))))))) (ix4 b o y x')
      = entry Z x k b o y x' := by
  simp only [tap_apply, framed_apply]
  simp only [entry, pixel, maxMin, taps, List.foldl]
  rfl

/-- The reference's result buffer after the 232 operations: the specification's result of the arguments. -/
theorem value (V : Valuation τ sig (Elt Ideal)) :
    after ops V (Proc.devRef .tc main_v227) = result Z (V (Proc.devRef .tc main_arg0)) (V (Proc.devRef .tc main_arg1)) := by
  rw [result_eq]
  funext i
  obtain ⟨b, o, y, x, rfl⟩ : ∃ (b : Fin 16) (o : Fin 32) (y x : Fin 256), i = ix4 b o y x :=
    ⟨i 0, i 1, i 2, i 3, eq_ix4 i⟩
  rw [result_ix4]
  exact taps_apply _ _ b o y x

/-- The reference's run: its result ends at the specification's result of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v227)
        = result Z (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v227).trans (value (launchContents m c)),
      (h c main_arg0).trans (kept_arg0 (launchContents m c)),
      (h c main_arg1).trans (kept_arg1 (launchContents m c))⟩)
    (Cert.ReferenceIdeal.Windows.run m ρ)

end Cert.ReferenceIdeal.Conv

end
-- ==== Proof.lean ====
/-
  The certificate of the max-min semifield convolution.

  Kernel and reference compute, at every entry (b, o, y, x), the same function of the images X and the weights W:
  the channel maximum M[b] = max_c X[b, c] framed by a border of width two of −∞, and then, from −∞, over the 25 taps
  (dy, dx) of the 5×5 window in row-major order, the running maximum with min (frame[b, y + dy, x + dx], W[o, dy, dx])
  (Proof/Spec.lean). The kernel does it one image per grid point, eight output channels at a time
  (Proof/KernelChunks.lean, Proof/KernelValue.lean: the staging buffer's four stored chunks are the specification's result of
  the block, and the sixteen blocks tile the array); the reference over whole arrays, nine host operations per tap
  (Proof/ReferenceWindows.lean: its 232 operations as four lists and their run; Proof/RefValue.lean: the fold read at an
  entry). Both sides take the same maxima and minima of the same extended reals in the same order, so no law of the
  extended reals beyond their order is used and the finiteness of the inputs is never opened.
  The two kernel frames are the generated frame certificates; the reference's frame is its run with the result
  dropped; the ideal pass rewrote nothing, so there is nothing to preserve.
-/
import proofs.«138590_j1606317768738_1_alg».proof.Defs
import proofs.«138590_j1606317768738_1_alg».proof.Proof.Gen.Kernel
import proofs.«138590_j1606317768738_1_alg».proof.Proof.Gen.Kernel.Frame
import proofs.«138590_j1606317768738_1_alg».proof.Proof.Gen.KernelIdeal
import proofs.«138590_j1606317768738_1_alg».proof.Proof.Gen.KernelIdeal.Frame
import proofs.«138590_j1606317768738_1_alg».proof.Proof.Gen.KernelIdeal.Value
import proofs.«138590_j1606317768738_1_alg».proof.Proof.Gen.ReferenceIdeal
import proofs.«138590_j1606317768738_1_alg».proof.Proof.Gen.Pre_finite_inputs
import proofs.«138590_j1606317768738_1_alg».proof.Proof.KernelValue
import proofs.«138590_j1606317768738_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Conv.run m ρ)

/-- Both idealized programs end with the specification's result of the arguments, which agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Conv.run m ρ, ?_⟩
  refine (θ_run Cert.ReferenceIdeal.defs _ _).mono (fun _ h c => ⟨(h c).1.trans ?_, (h c).2⟩)
    (Cert.ReferenceIdeal.Conv.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
